-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v53_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v53_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x20000 : Shape := ⟨2, ![8192, 20000]⟩
abbrev S2x262144 : Shape := ⟨2, ![2, 262144]⟩
abbrev S20000x256 : Shape := ⟨2, ![20000, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x20000 : Shape := ⟨2, ![256, 20000]⟩
abbrev S20000 : Shape := ⟨1, ![20000]⟩
abbrev S_ : Shape := ⟨0, ![]⟩

class Facts : Prop where
  bcast_S_S8192x20000 : S_.BroadcastsInDim S8192x20000 (![] : Fin 0 → Fin S8192x20000.rank)
  reducesTo_S8192x20000_S_d0_1 : S8192x20000.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x20000 : S_.BroadcastsInDim S256x20000 (![] : Fin 0 → Fin S256x20000.rank)
  reducesTo_S256x20000_S_d0_1 : S256x20000.ReducesTo [0, 1] S_
  bcast_S_S20000 : S_.BroadcastsInDim S20000 (![] : Fin 0 → Fin S20000.rank)
  reducesTo_S20000_S_d0 : S20000.ReducesTo [0] S_

variable [Facts]

def fn_part2 {F : FTy → Type} [FloatOps F] (main_arg8 : FVec F S256x20000 .f32) (main_arg9 : FVec F S20000 .f32) (main_v33 : IVec S_ 1) : IVec S_ 1 :=
  let main_v34 : FVec F S256x20000 .f32 := Host.absf main_arg8
  let main_cst_12 : FVec F S_ .f32 := constant S_ .f32 0x7F800000#32
  let main_v35 : FVec F S256x20000 .f32 := broadcastInDim S256x20000 ![] bcast_S_S256x20000 main_cst_12
  let main_v36 : IVec S256x20000 1 := cmpf .olt main_v34 main_v35
  let main_c_13 : IVec S_ 1 := constantI S_ 1 1#1
  let main_v37 : IVec S_ 1 := (fun x v => Host.reduce IntOp.andi x v reducesTo_S256x20000_S_d0_1 h_S_) main_v36 main_c_13
  let main_v38 : IVec S_ 1 := andi main_v33 main_v37
  let main_v39 : FVec F S20000 .f32 := Host.absf main_arg9
  let main_cst_14 : FVec F S_ .f32 := constant S_ .f32 0x7F800000#32
  let main_v40 : FVec F S20000 .f32 := broadcastInDim S20000 ![] bcast_S_S20000 main_cst_14
  let main_v41 : IVec S20000 1 := cmpf .olt main_v39 main_v40
  let main_c_15 : IVec S_ 1 := constantI S_ 1 1#1
  let main_v42 : IVec S_ 1 := (fun x v => Host.reduce IntOp.andi x v reducesTo_S20000_S_d0 h_S_) main_v41 main_c_15
  let main_v43 : IVec S_ 1 := andi main_v38 main_v42
  main_v43

def fn_part1 {F : FTy → Type} [FloatOps F] (main_arg5 : FVec F S64 .f32) (main_arg6 : FVec F S64x256 .f32) (main_arg7 : FVec F S256 .f32) (main_arg8 : FVec F S256x20000 .f32) (main_arg9 : FVec F S20000 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S8192x20000 .f32) (main_arg1 : IVec S2x262144 32) (main_arg2 : FVec F S20000x256 .f32) (main_arg3 : FVec F S256 .f32) (main_arg4 : FVec F S256x64 .f32) (main_arg5 : FVec F S64 .f32) (main_arg6 : FVec F S64x256 .f32) (main_arg7 : FVec F S256 .f32) (main_arg8 : FVec F S256x20000 .f32) (main_arg9 : FVec F S20000 .f32) : IVec S_ 1 :=
  let main_v0 : FVec F S8192x20000 .f32 := Host.absf main_arg0
  let main_cst : FVec F S_ .f32 := constant S_ .f32 0x7F800000#32
  let main_v1 : FVec F S8192x20000 .f32 := broadcastInDim S8192x20000 ![] bcast_S_S8192x20000 main_cst
  let main_v2 : IVec S8192x20000 1 := cmpf .olt main_v0 main_v1
  let main_c : IVec S_ 1 := constantI S_ 1 1#1
  let main_v3 : IVec S_ 1 := (fun x v => Host.reduce IntOp.andi x v reducesTo_S8192x20000_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S8192x20000 : Shape := ⟨2, ![8192, 20000]⟩
abbrev S2x262144 : Shape := ⟨2, ![2, 262144]⟩
abbrev S20000x256 : Shape := ⟨2, ![20000, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x20000 : Shape := ⟨2, ![256, 20000]⟩
abbrev S20000 : Shape := ⟨1, ![20000]⟩
abbrev S8192x256 : Shape := ⟨2, ![8192, 256]⟩
abbrev S128x20000 : Shape := ⟨2, ![128, 20000]⟩
abbrev S128x256 : Shape := ⟨2, ![128, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S1x64 : Shape := ⟨2, ![1, 64]⟩
abbrev S8192x64 : Shape := ⟨2, ![8192, 64]⟩
abbrev S1024x256 : Shape := ⟨2, ![1024, 256]⟩
abbrev S1024x64 : Shape := ⟨2, ![1024, 64]⟩
abbrev S1x20000 : Shape := ⟨2, ![1, 20000]⟩
abbrev S64x20000 : Shape := ⟨2, ![64, 20000]⟩

abbrev nBuf : Space → Nat
  | .hbm => 80
  | .vmem => 21
  | .smem => 0
  | _ => 0

abbrev bufTy : (tb : Table) → Fin (tcTables nBuf tb) → BufTy
  | .hbm, ⟨0, _⟩ => ⟨S8192x20000, .f32⟩
  | .hbm, ⟨1, _⟩ => ⟨S2x262144, .i32⟩
  | .hbm, ⟨2, _⟩ => ⟨S20000x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x20000, .f32⟩
  | .hbm, ⟨9, _⟩ => ⟨S20000, .f32⟩
  | .hbm, ⟨10, _⟩ => ⟨S20000x256, .bf16⟩
  | .hbm, ⟨11, _⟩ => ⟨S256x64, .bf16⟩
  | .hbm, ⟨12, _⟩ => ⟨S64x256, .bf16⟩
  | .hbm, ⟨13, _⟩ => ⟨S256x20000, .bf16⟩
  | .hbm, ⟨14, _⟩ => ⟨S8192x256, .f32⟩
  | .hbm, ⟨15, _⟩ => ⟨S8192, .i32⟩
  | .hbm, ⟨16, _⟩ => ⟨S1x262144, .i32⟩
  | .hbm, ⟨17, _⟩ => ⟨S262144, .i32⟩
  | .hbm, ⟨18, _⟩ => ⟨S270336, .i32⟩
  | .hbm, ⟨19, _⟩ => ⟨S1x262144, .i32⟩
  | .hbm, ⟨20, _⟩ => ⟨S262144, .i32⟩
  | .hbm, ⟨21, _⟩ => ⟨S270336, .i32⟩
  | .hbm, ⟨22, _⟩ => ⟨S_, .f32⟩
  | .hbm, ⟨23, _⟩ => ⟨S270336, .f32⟩
  | .hbm, ⟨24, _⟩ => ⟨S_, .f32⟩
  | .hbm, ⟨25, _⟩ => ⟨S8192, .f32⟩
  | .hbm, ⟨26, _⟩ => ⟨S270336x1, .i32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .i1⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .i32⟩
  | .hbm, ⟨37, _⟩ => ⟨S270336, .i32⟩
  | .hbm, ⟨38, _⟩ => ⟨S270336, .i1⟩
  | .hbm, ⟨39, _⟩ => ⟨S_, .i32⟩
  | .hbm, ⟨40, _⟩ => ⟨S270336, .i32⟩
  | .hbm, ⟨41, _⟩ => ⟨S270336, .i32⟩
  | .hbm, ⟨42, _⟩ => ⟨S270336, .i32⟩
  | .hbm, ⟨43, _⟩ => ⟨S270336x1, .i32⟩
  | .hbm, ⟨44, _⟩ => ⟨S270336, .f32⟩
  | .hbm, ⟨45, _⟩ => ⟨S_, .i32⟩
  | .hbm, ⟨46, _⟩ => ⟨S270336, .i32⟩
  | .hbm, ⟨47, _⟩ => ⟨S270336, .i1⟩
  | .hbm, ⟨48, _⟩ => ⟨S_, .i32⟩
  | .hbm, ⟨49, _⟩ => ⟨S270336, .i32⟩
  | .hbm, ⟨50, _⟩ => ⟨S270336, .i32⟩
  | .hbm, ⟨51, _⟩ => ⟨S270336, .i32⟩
  | .hbm, ⟨52, _⟩ => ⟨S270336x1, .i32⟩
  | .hbm, ⟨53, _⟩ => ⟨S270336, .f32⟩
  | .hbm, ⟨54, _⟩ => ⟨S270336, .f32⟩
  | .hbm, ⟨55, _⟩ => ⟨S_, .i32⟩
  | .hbm, ⟨56, _⟩ => ⟨S270336, .i32⟩
  | .hbm, ⟨57, _⟩ => ⟨S270336, .i1⟩
  | .hbm, ⟨58, _⟩ => ⟨S_, .i32⟩
  | .hbm, ⟨59, _⟩ => ⟨S270336, .i32⟩
  | .hbm, ⟨60, _⟩ => ⟨S270336, .i32⟩
  | .hbm, ⟨61, _⟩ => ⟨S270336, .i32⟩
  | .hbm, ⟨62, _⟩ => ⟨S270336x1, .i32⟩
  | .hbm, ⟨63, _⟩ => ⟨S270336x256, .f32⟩
  | .hbm, ⟨64, _⟩ => ⟨S270336x1, .f32⟩
  | .hbm, ⟨65, _⟩ => ⟨S270336x256, .f32⟩
  | .hbm, ⟨66, _⟩ => ⟨S270336x256, .f32⟩
  | .hbm, ⟨67, _⟩ => ⟨S_, .f32⟩
  | .hbm, ⟨68, _⟩ => ⟨S8192x256, .f32⟩
  | .hbm, ⟨69, _⟩ => ⟨S270336x1, .i32⟩
  | .hbm, ⟨70, _⟩ => ⟨S8192x256, .f32⟩
  | .hbm, ⟨71, _⟩ => ⟨S1x256, .f32⟩
  | .hbm, ⟨72, _⟩ => ⟨S8192x256, .f32⟩
  | .hbm, ⟨73, _⟩ => ⟨S8192x256, .f32⟩
  | .hbm, ⟨74, _⟩ => ⟨S1x64, .f32⟩
  | .hbm, ⟨75, _⟩ => ⟨S1x256, .f32⟩
  | .hbm, ⟨76, _⟩ => ⟨S8192x64, .f32⟩
  | .hbm, ⟨77, _⟩ => ⟨S8192x256, .f32⟩
  | .hbm, ⟨78, _⟩ => ⟨S1x20000, .f32⟩
  | .hbm, ⟨79, _⟩ => ⟨S8192x20000, .f32⟩
  | .local _ .vmem, ⟨0, _⟩ => ⟨S128x20000, .f32⟩
  | .local _ .vmem, ⟨1, _⟩ => ⟨S128x20000, .f32⟩
  | .local _ .vmem, ⟨2, _⟩ => ⟨S20000x256, .bf16⟩
  | .local _ .vmem, ⟨3, _⟩ => ⟨S128x256, .f32⟩
  | .local _ .vmem, ⟨4, _⟩ => ⟨S128x256, .f32⟩
  | .local _ .vmem, ⟨5, _⟩ => ⟨S1024x256, .f32⟩
  | .local _ .vmem, ⟨6, _⟩ => ⟨S1024x256, .f32⟩
  | .local _ .vmem, ⟨7, _⟩ => ⟨S256x64, .bf16⟩
  | .local _ .vmem, ⟨8, _⟩ => ⟨S1x64, .f32⟩
  | .local _ .vmem, ⟨9, _⟩ => ⟨S64x256, .bf16⟩
  | .local _ .vmem, ⟨10, _⟩ => ⟨S1x256, .f32⟩
  | .local _ .vmem, ⟨11, _⟩ => ⟨S1024x64, .f32⟩
  | .local _ .vmem, ⟨12, _⟩ => ⟨S1024x64, .f32⟩
  | .local _ .vmem, ⟨13, _⟩ => ⟨S1024x256, .f32⟩
  | .local _ .vmem, ⟨14, _⟩ => ⟨S1024x256, .f32⟩
  | .local _ .vmem, ⟨15, _⟩ => ⟨S64x256, .f32⟩
  | .local _ .vmem, ⟨16, _⟩ => ⟨S64x256, .f32⟩
  | .local _ .vmem, ⟨17, _⟩ => ⟨S256x20000, .bf16⟩
  | .local _ .vmem, ⟨18, _⟩ => ⟨S1x20000, .f32⟩
  | .local _ .vmem, ⟨19, _⟩ => ⟨S64x20000, .f32⟩
  | .local _ .vmem, ⟨20, _⟩ => ⟨S64x20000, .f32⟩
  | _, _ => ⟨S8192x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x20000 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x20000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x20000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S128x20000_S128x20000_0_0 : ∀ a, (![0, 0] : Fin 2 → Nat) a + S128x20000.size a ≤ S128x20000.size a
  h_S128x20000 : 0 < S128x20000.numel
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  inb_S128x256_S128x256_0_0 : ∀ a, (![0, 0] : Fin 2 → Nat) a + S128x256.size a ≤ S128x256.size a
  h_S128x256 : 0 < S128x256.numel
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S64_S1x64 : S64.ShapeCasts S1x64
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S20000_S1x20000 : S20000.ShapeCasts S1x20000
  inb_S256x20000_S256x20000_0_0 : ∀ a, (![0, 0] : Fin 2 → Nat) a + S256x20000.size a ≤ S256x20000.size a
  h_S256x20000 : 0 < S256x20000.numel
  shapeCasts_S256x20000_S256x20000 : S256x20000.ShapeCasts S256x20000
  inb_S1x20000_S1x20000_0_0 : ∀ a, (![0, 0] : Fin 2 → Nat) a + S1x20000.size a ≤ S1x20000.size a
  h_S1x20000 : 0 < S1x20000.numel
  shapeCasts_S1x20000_S1x20000 : S1x20000.ShapeCasts S1x20000
  broadcasts_S1x20000_S64x20000 : S1x20000.Broadcasts S64x20000
  inb_S64x20000_S64x20000_0_0 : ∀ a, (![0, 0] : Fin 2 → Nat) a + S64x20000.size a ≤ S64x20000.size a
  h_S64x20000 : 0 < S64x20000.numel
  dot_S128x20000_S20000x256_S128x256_1_0_0_1_n_n_wf : DotDims.WF S128x20000 S20000x256 S128x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S1024x256_S256x64_S1024x64_1_0_0_1_n_n_wf : DotDims.WF S1024x256 S256x64 S1024x64 [1] [0] [0] [1] [] []
  dot_S1024x64_S64x256_S1024x256_1_0_0_1_n_n_wf : DotDims.WF S1024x64 S64x256 S1024x256 [1] [0] [0] [1] [] []
  dot_S64x256_S256x20000_S64x20000_1_0_0_1_n_n_wf : DotDims.WF S64x256 S256x20000 S64x20000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20000.size a ≤ S8192x20000.size a
  hwx0_0 : ∀ i : grid0.Coords, EltTy.bits .f32 = 32 ∨ (Rect.block (s := S8192x20000) S128x20000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20000x256.size a ≤ S20000x256.size a
  hwx0_1 : ∀ i : grid0.Coords, EltTy.bits .bf16 = 32 ∨ (Rect.block (s := S20000x256) S20000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S8192x256.size a
  hwx0_2 : ∀ i : grid0.Coords, EltTy.bits .f32 = 32 ∨ (Rect.block (s := S8192x256) S128x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .bf16 = 32 ∨ (Rect.block (s := S64x256) S64x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x256.size a ≤ S8192x256.size a
  hwx2_0 : ∀ i : grid2.Coords, EltTy.bits .f32 = 32 ∨ (Rect.block (s := S8192x256) S64x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x20000.size a ≤ S256x20000.size a
  hwx2_1 : ∀ i : grid2.Coords, EltTy.bits .bf16 = 32 ∨ (Rect.block (s := S256x20000) S256x20000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x20000.size a ≤ S1x20000.size a
  hwx2_2 : ∀ i : grid2.Coords, EltTy.bits .f32 = 32 ∨ (Rect.block (s := S1x20000) S1x20000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x20000.size a ≤ S8192x20000.size a
  hwx2_3 : ∀ i : grid2.Coords, EltTy.bits .f32 = 32 ∨ (Rect.block (s := S8192x20000) S64x20000.size (cc2_transform_3 i) (hinb2_3 i)).WholeWords (EltTy.packing .f32)

variable [Facts₀]

def dot_S128x20000_S20000x256_S128x256_1_0_0_1_n_n : DotDims S128x20000 S20000x256 S128x256 where
  lhsContracting := [1]
  rhsContracting := [0]
  lhsNonContracting := [0]
  rhsNonContracting := [1]
  lhsBatch := []
  rhsBatch := []
  wf := dot_S128x20000_S20000x256_S128x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S64x256_S256x20000_S64x20000_1_0_0_1_n_n : DotDims S64x256 S256x20000 S64x20000 where
  lhsContracting := [1]
  rhsContracting := [0]
  lhsNonContracting := [0]
  rhsNonContracting := [1]
  lhsBatch := []
  rhsBatch := []
  wf := dot_S64x256_S256x20000_S64x20000_1_0_0_1_n_n_wf

abbrev win0_0 : Pipeline.Window sig grid0 :=
  Pipeline.Window.ofSpec (Memref.whole main_arg0) S128x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53_0) S1024x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v53_1) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53_1) S64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S256x20000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x20000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64x20000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x20000 : Shape := ⟨2, ![8192, 20000]⟩
abbrev S2x262144 : Shape := ⟨2, ![2, 262144]⟩
abbrev S20000x256 : Shape := ⟨2, ![20000, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x20000 : Shape := ⟨2, ![256, 20000]⟩
abbrev S20000 : Shape := ⟨1, ![20000]⟩
abbrev S8192x256 : Shape := ⟨2, ![8192, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S8192x64 : Shape := ⟨2, ![8192, 64]⟩
abbrev S1x64 : Shape := ⟨2, ![1, 64]⟩
abbrev S1x20000 : Shape := ⟨2, ![1, 20000]⟩

abbrev nBuf : Space → Nat
  | .hbm => 88
  | .vmem => 0
  | .smem => 0
  | _ => 0

abbrev bufTy : (tb : Table) → Fin (tcTables nBuf tb) → BufTy
  | .hbm, ⟨0, _⟩ => ⟨S8192x20000, .f32⟩
  | .hbm, ⟨1, _⟩ => ⟨S2x262144, .i32⟩
  | .hbm, ⟨2, _⟩ => ⟨S20000x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x20000, .f32⟩
  | .hbm, ⟨9, _⟩ => ⟨S20000, .f32⟩
  | .hbm, ⟨10, _⟩ => ⟨S8192x256, .f32⟩
  | .hbm, ⟨11, _⟩ => ⟨S8192, .i32⟩
  | .hbm, ⟨12, _⟩ => ⟨S1x262144, .i32⟩
  | .hbm, ⟨13, _⟩ => ⟨S262144, .i32⟩
  | .hbm, ⟨14, _⟩ => ⟨S270336, .i32⟩
  | .hbm, ⟨15, _⟩ => ⟨S1x262144, .i32⟩
  | .hbm, ⟨16, _⟩ => ⟨S262144, .i32⟩
  | .hbm, ⟨17, _⟩ => ⟨S270336, .i32⟩
  | .hbm, ⟨18, _⟩ => ⟨S_, .f32⟩
  | .hbm, ⟨19, _⟩ => ⟨S270336, .f32⟩
  | .hbm, ⟨20, _⟩ => ⟨S_, .f32⟩
  | .hbm, ⟨21, _⟩ => ⟨S8192, .f32⟩
  | .hbm, ⟨22, _⟩ => ⟨S270336x1, .i32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .i1⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .i32⟩
  | .hbm, ⟨33, _⟩ => ⟨S270336, .i32⟩
  | .hbm, ⟨34, _⟩ => ⟨S270336, .i1⟩
  | .hbm, ⟨35, _⟩ => ⟨S_, .i32⟩
  | .hbm, ⟨36, _⟩ => ⟨S270336, .i32⟩
  | .hbm, ⟨37, _⟩ => ⟨S270336, .i32⟩
  | .hbm, ⟨38, _⟩ => ⟨S270336, .i32⟩
  | .hbm, ⟨39, _⟩ => ⟨S270336x1, .i32⟩
  | .hbm, ⟨40, _⟩ => ⟨S270336, .f32⟩
  | .hbm, ⟨41, _⟩ => ⟨S_, .i32⟩
  | .hbm, ⟨42, _⟩ => ⟨S270336, .i32⟩
  | .hbm, ⟨43, _⟩ => ⟨S270336, .i1⟩
  | .hbm, ⟨44, _⟩ => ⟨S_, .i32⟩
  | .hbm, ⟨45, _⟩ => ⟨S270336, .i32⟩
  | .hbm, ⟨46, _⟩ => ⟨S270336, .i32⟩
  | .hbm, ⟨47, _⟩ => ⟨S270336, .i32⟩
  | .hbm, ⟨48, _⟩ => ⟨S270336x1, .i32⟩
  | .hbm, ⟨49, _⟩ => ⟨S270336, .f32⟩
  | .hbm, ⟨50, _⟩ => ⟨S270336, .f32⟩
  | .hbm, ⟨51, _⟩ => ⟨S_, .i32⟩
  | .hbm, ⟨52, _⟩ => ⟨S270336, .i32⟩
  | .hbm, ⟨53, _⟩ => ⟨S270336, .i1⟩
  | .hbm, ⟨54, _⟩ => ⟨S_, .i32⟩
  | .hbm, ⟨55, _⟩ => ⟨S270336, .i32⟩
  | .hbm, ⟨56, _⟩ => ⟨S270336, .i32⟩
  | .hbm, ⟨57, _⟩ => ⟨S270336, .i32⟩
  | .hbm, ⟨58, _⟩ => ⟨S270336x1, .i32⟩
  | .hbm, ⟨59, _⟩ => ⟨S270336x256, .f32⟩
  | .hbm, ⟨60, _⟩ => ⟨S270336x1, .f32⟩
  | .hbm, ⟨61, _⟩ => ⟨S270336x256, .f32⟩
  | .hbm, ⟨62, _⟩ => ⟨S270336x256, .f32⟩
  | .hbm, ⟨63, _⟩ => ⟨S_, .f32⟩
  | .hbm, ⟨64, _⟩ => ⟨S8192x256, .f32⟩
  | .hbm, ⟨65, _⟩ => ⟨S270336x1, .i32⟩
  | .hbm, ⟨66, _⟩ => ⟨S8192x256, .f32⟩
  | .hbm, ⟨67, _⟩ => ⟨S1x256, .f32⟩
  | .hbm, ⟨68, _⟩ => ⟨S8192x256, .f32⟩
  | .hbm, ⟨69, _⟩ => ⟨S8192x256, .f32⟩
  | .hbm, ⟨70, _⟩ => ⟨S_, .f32⟩
  | .hbm, ⟨71, _⟩ => ⟨S8192x256, .f32⟩
  | .hbm, ⟨72, _⟩ => ⟨S8192x256, .f32⟩
  | .hbm, ⟨73, _⟩ => ⟨S8192x64, .f32⟩
  | .hbm, ⟨74, _⟩ => ⟨S1x64, .f32⟩
  | .hbm, ⟨75, _⟩ => ⟨S8192x64, .f32⟩
  | .hbm, ⟨76, _⟩ => ⟨S8192x64, .f32⟩
  | .hbm, ⟨77, _⟩ => ⟨S8192x256, .f32⟩
  | .hbm, ⟨78, _⟩ => ⟨S1x256, .f32⟩
  | .hbm, ⟨79, _⟩ => ⟨S8192x256, .f32⟩
  | .hbm, ⟨80, _⟩ => ⟨S8192x256, .f32⟩
  | .hbm, ⟨81, _⟩ => ⟨S_, .f32⟩
  | .hbm, ⟨82, _⟩ => ⟨S8192x256, .f32⟩
  | .hbm, ⟨83, _⟩ => ⟨S8192x256, .f32⟩
  | .hbm, ⟨84, _⟩ => ⟨S8192x20000, .f32⟩
  | .hbm, ⟨85, _⟩ => ⟨S1x20000, .f32⟩
  | .hbm, ⟨86, _⟩ => ⟨S8192x20000, .f32⟩
  | .hbm, ⟨87, _⟩ => ⟨S8192x20000, .f32⟩
  | _, _ => ⟨S8192x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S20000_S1x20000_1 : S20000.BroadcastsInDim S1x20000 (![1] : Fin 1 → Fin S1x20000.rank)
  bcast_S1x20000_S8192x20000_0_1 : S1x20000.BroadcastsInDim S8192x20000 (![0, 1] : Fin 2 → Fin S8192x20000.rank)
  dot_S8192x20000_S20000x256_S8192x256_1_0_0_1_n_n_wf : DotDims.WF S8192x20000 S20000x256 S8192x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x64_S8192x64_1_0_0_1_n_n_wf : DotDims.WF S8192x256 S256x64 S8192x64 [1] [0] [0] [1] [] []
  dot_S8192x64_S64x256_S8192x256_1_0_0_1_n_n_wf : DotDims.WF S8192x64 S64x256 S8192x256 [1] [0] [0] [1] [] []
  dot_S8192x256_S256x20000_S8192x20000_1_0_0_1_n_n_wf : DotDims.WF S8192x256 S256x20000 S8192x20000 [1] [0] [0] [1] [] []

variable [Facts₀]

def dot_S8192x20000_S20000x256_S8192x256_1_0_0_1_n_n : DotDims S8192x20000 S20000x256 S8192x256 where
  lhsContracting := [1]
  rhsContracting := [0]
  lhsNonContracting := [0]
  rhsNonContracting := [1]
  lhsBatch := []
  rhsBatch := []
  wf := dot_S8192x20000_S20000x256_S8192x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x20000_S8192x20000_1_0_0_1_n_n : DotDims S8192x256 S256x20000 S8192x20000 where
  lhsContracting := [1]
  rhsContracting := [0]
  lhsNonContracting := [0]
  rhsNonContracting := [1]
  lhsBatch := []
  rhsBatch := []
  wf := dot_S8192x256_S256x20000_S8192x20000_1_0_0_1_n_n_wf

class Facts : Prop extends Facts₀ where

variable [Facts]
-- ==== Proof.FoldStructure.lean ====
/-
  The contents of the TensorCore's buffers at the boundaries between the segments of the kernel program's @main, as far
  as the program's text alone decides them, for any float family: a buffer that no operation of a host stretch writes
  is carried across the stretch; the four weight matrices are converted once, before the first region; the two bias
  vectors of the second region are reshaped to one row each just before it; and THE AGGREGATION — the host operations
  between the first and the second region (degrees by scatter-add over the target nodes with self-loops, their inverse
  square roots where positive, the two gathers of those and their product, the gather of the rows of h, the scaled
  messages, their scatter-add, the bias) — is, operation for operation, the reference's own chain applied to the first
  product, to the edge list and to the bias: it is matched against the reference's stage as ONE term and never opened.
-/
import proofs.«170142_j45904610459855_1_alg».proof.Proof.Gen.KernelIdeal.Frame
import proofs.«170142_j45904610459855_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen

/-- A buffer none of a stretch's operations writes holds after the stretch what it held before. -/
macro "unwritten_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

section Structure

variable {F : FTy → Type} [FloatOps F]
variable (m : (ℓ : Loc nD τ sig) → Buf (Elt F) ℓ) (ρ : Dev nD → PrngReg)

/-! ## After the four conversions (the first region's entry) -/

theorem W1_arg0 (c : Dev nD) : W1 m ρ c (Proc.devRef .tc main_arg0) = (m ((c : Thread nD τ).loc main_arg0)) := by
  show StableHlo.after hostOps0 (W0 m ρ c) (Proc.devRef .tc main_arg0) = W0 m ρ c (Proc.devRef .tc main_arg0)
  unwritten_by hostOps0
theorem W1_arg1 (c : Dev nD) : W1 m ρ c (Proc.devRef .tc main_arg1) = (m ((c : Thread nD τ).loc main_arg1)) := by
  show StableHlo.after hostOps0 (W0 m ρ c) (Proc.devRef .tc main_arg1) = W0 m ρ c (Proc.devRef .tc main_arg1)
  unwritten_by hostOps0
theorem W1_arg3 (c : Dev nD) : W1 m ρ c (Proc.devRef .tc main_arg3) = (m ((c : Thread nD τ).loc main_arg3)) := by
  show StableHlo.after hostOps0 (W0 m ρ c) (Proc.devRef .tc main_arg3) = W0 m ρ c (Proc.devRef .tc main_arg3)
  unwritten_by hostOps0
theorem W1_arg5 (c : Dev nD) : W1 m ρ c (Proc.devRef .tc main_arg5) = (m ((c : Thread nD τ).loc main_arg5)) := by
  show StableHlo.after hostOps0 (W0 m ρ c) (Proc.devRef .tc main_arg5) = W0 m ρ c (Proc.devRef .tc main_arg5)
  unwritten_by hostOps0
theorem W1_arg7 (c : Dev nD) : W1 m ρ c (Proc.devRef .tc main_arg7) = (m ((c : Thread nD τ).loc main_arg7)) := by
  show StableHlo.after hostOps0 (W0 m ρ c) (Proc.devRef .tc main_arg7) = W0 m ρ c (Proc.devRef .tc main_arg7)
  unwritten_by hostOps0
theorem W1_arg9 (c : Dev nD) : W1 m ρ c (Proc.devRef .tc main_arg9) = (m ((c : Thread nD τ).loc main_arg9)) := by
  show StableHlo.after hostOps0 (W0 m ρ c) (Proc.devRef .tc main_arg9) = W0 m ρ c (Proc.devRef .tc main_arg9)
  unwritten_by hostOps0

/-- The four weight matrices, each converted to the narrower float format. -/
theorem W1_v0 (c : Dev nD) : W1 m ρ c (Proc.devRef .tc main_v0) = truncf .bf16 (m ((c : Thread nD τ).loc main_arg2)) bitsLt_bf16_f32 := by
  show StableHlo.after hostOps0 (W0 m ρ c) (Proc.devRef .tc main_v0) = _
  after_results
theorem W1_v1 (c : Dev nD) : W1 m ρ c (Proc.devRef .tc main_v1) = truncf .bf16 (m ((c : Thread nD τ).loc main_arg4)) bitsLt_bf16_f32 := by
  show StableHlo.after hostOps0 (W0 m ρ c) (Proc.devRef .tc main_v1) = _
  after_results
theorem W1_v2 (c : Dev nD) : W1 m ρ c (Proc.devRef .tc main_v2) = truncf .bf16 (m ((c : Thread nD τ).loc main_arg6)) bitsLt_bf16_f32 := by
  show StableHlo.after hostOps0 (W0 m ρ c) (Proc.devRef .tc main_v2) = _
  after_results
theorem W1_v3 (c : Dev nD) : W1 m ρ c (Proc.devRef .tc main_v3) = truncf .bf16 (m ((c : Thread nD τ).loc main_arg8)) bitsLt_bf16_f32 := by
  show StableHlo.after hostOps0 (W0 m ρ c) (Proc.devRef .tc main_v3) = _
  after_results

/-! ## The three host stretches between the first and the second region write none of these -/

theorem W5_of_W2 (c : Dev nD) (b : Ref sig .tc)
    (h1 : StableHlo.after hostOps1 (W2 m ρ c) (Proc.devRef .tc b) = W2 m ρ c (Proc.devRef .tc b))
    (h2 : StableHlo.after hostOps1_1 (W3 m ρ c) (Proc.devRef .tc b) = W3 m ρ c (Proc.devRef .tc b))
    (h3 : StableHlo.after hostOps1_2 (W4 m ρ c) (Proc.devRef .tc b) = W4 m ρ c (Proc.devRef .tc b)) :
    W5 m ρ c (Proc.devRef .tc b) = W2 m ρ c (Proc.devRef .tc b) :=
  h3.trans (h2.trans h1)

theorem W5_keeps (c : Dev nD) :
    W5 m ρ c (Proc.devRef .tc main_v1) = W2 m ρ c (Proc.devRef .tc main_v1)
    ∧ W5 m ρ c (Proc.devRef .tc main_v2) = W2 m ρ c (Proc.devRef .tc main_v2)
    ∧ W5 m ρ c (Proc.devRef .tc main_v3) = W2 m ρ c (Proc.devRef .tc main_v3)
    ∧ W5 m ρ c (Proc.devRef .tc main_arg9) = W2 m ρ c (Proc.devRef .tc main_arg9)
    ∧ W4 m ρ c (Proc.devRef .tc main_arg5) = W2 m ρ c (Proc.devRef .tc main_arg5)
    ∧ W4 m ρ c (Proc.devRef .tc main_arg7) = W2 m ρ c (Proc.devRef .tc main_arg7) := by
  refine ⟨W5_of_W2 m ρ c main_v1 ?_ ?_ ?_, W5_of_W2 m ρ c main_v2 ?_ ?_ ?_, W5_of_W2 m ρ c main_v3 ?_ ?_ ?_,
    W5_of_W2 m ρ c main_arg9 ?_ ?_ ?_, Eq.trans (b := W3 m ρ c (Proc.devRef .tc main_arg5)) ?_ ?_, Eq.trans (b := W3 m ρ c (Proc.devRef .tc main_arg7)) ?_ ?_⟩
  · unwritten_by hostOps1
  · unwritten_by hostOps1_1
  · unwritten_by hostOps1_2
  · unwritten_by hostOps1
  · unwritten_by hostOps1_1
  · unwritten_by hostOps1_2
  · unwritten_by hostOps1
  · unwritten_by hostOps1_1
  · unwritten_by hostOps1_2
  · unwritten_by hostOps1
  · unwritten_by hostOps1_1
  · unwritten_by hostOps1_2
  · show StableHlo.after hostOps1_1 (W3 m ρ c) (Proc.devRef .tc main_arg5) = W3 m ρ c (Proc.devRef .tc main_arg5)
    unwritten_by hostOps1_1
  · show StableHlo.after hostOps1 (W2 m ρ c) (Proc.devRef .tc main_arg5) = W2 m ρ c (Proc.devRef .tc main_arg5)
    unwritten_by hostOps1
  · show StableHlo.after hostOps1_1 (W3 m ρ c) (Proc.devRef .tc main_arg7) = W3 m ρ c (Proc.devRef .tc main_arg7)
    unwritten_by hostOps1_1
  · show StableHlo.after hostOps1 (W2 m ρ c) (Proc.devRef .tc main_arg7) = W2 m ρ c (Proc.devRef .tc main_arg7)
    unwritten_by hostOps1

/-- The two bias vectors of the second region, each reshaped to one row. -/
theorem W5_v51 (c : Dev nD) : W5 m ρ c (Proc.devRef .tc main_v51) = shapeCast S1x64 (W4 m ρ c (Proc.devRef .tc main_arg5)) shapeCasts_S64_S1x64 := by
  show StableHlo.after hostOps1_2 (W4 m ρ c) (Proc.devRef .tc main_v51) = _
  after_results_simp
  rfl
theorem W5_v52 (c : Dev nD) : W5 m ρ c (Proc.devRef .tc main_v52) = shapeCast S1x256 (W4 m ρ c (Proc.devRef .tc main_arg7)) shapeCasts_S256_S1x256 := by
  show StableHlo.after hostOps1_2 (W4 m ρ c) (Proc.devRef .tc main_v52) = _
  after_results_simp
  rfl

set_option maxHeartbeats 4000000 in
/-- THE AGGREGATION. The second region's first input is the reference's aggregated features, when the first region left
    the reference's first product: the kernel program's host operations between the two regions are the reference's own,
    one for one, applied to that product, to the edge list and to the bias. -/
theorem W5_v50 (c : Dev nD)
    (x0 : (⟨S8192x20000, .f32⟩ : BufTy).Contents (Elt F)) (x1 : (⟨S2x262144, .i32⟩ : BufTy).Contents (Elt F))
    (x2 : (⟨S20000x256, .f32⟩ : BufTy).Contents (Elt F)) (x3 : (⟨S256, .f32⟩ : BufTy).Contents (Elt F))
    (hh : W2 m ρ c (Proc.devRef .tc main_v4) = Cert.ReferenceIdeal.Read.val_main_v0 x0 x2)
    (he : W2 m ρ c (Proc.devRef .tc main_arg1) = x1) (hb : W2 m ρ c (Proc.devRef .tc main_arg3) = x3) :
    W5 m ρ c (Proc.devRef .tc main_v50) = Cert.ReferenceIdeal.Read.val_main_v46 x0 x1 x2 x3 := by
  show StableHlo.after hostOps1_2 (StableHlo.after hostOps1_1 (StableHlo.after hostOps1 (W2 m ρ c))) (Proc.devRef .tc main_v50) = _
  after_results_simp
  -- inside a concatenate's operand list the one-pass reading does not reach: read those operands one operation at a time
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hh, he, hb]
  rfl

end Structure

end Cert.KernelIdeal.Fold

end
-- ==== Proof.RegionH.lean ====
/-
  The first matrix product, h = x · W_gcn, as the first region leaves it.
  The region tiles the 8192 rows of x into 64 blocks of 128 rows; each grid point multiplies its block by the whole
  weight matrix into a zero accumulator and writes the 128 × 256 product back. Over the extended reals the change of
  float format of both operands is the identity, so entry (i, j) of the array after the region is the sum over k of
  x(i, k) · W(k, j): the reference's product read at (i, j).
-/
import proofs.«170142_j45904610459855_1_alg».proof.Proof.Gen.KernelIdeal.Frame
import proofs.«170142_j45904610459855_1_alg».proof.Proof.RefRead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionH

open Cert.KernelIdeal Cert.KernelIdeal.Gen

/-! ## The reference's product at an entry -/

/-- Entry (r, q) of the reference's x · W_gcn is the sum over k of x(r, k) · W(k, q). -/
private theorem ref_h_apply (x0 : (⟨S8192x20000, .f32⟩ : BufTy).Contents (Elt Ideal)) (x2 : (⟨S20000x256, .f32⟩ : BufTy).Contents (Elt Ideal))
    (r : Fin 8192) (q : Fin 256) :
    Cert.ReferenceIdeal.Read.val_main_v0 (F := Ideal) x0 x2 (ValueIdx.ix2 r q)
      = ∑ k : Fin 20000, (x0 (ValueIdx.ix2 r k) : EReal) * (x2 (ValueIdx.ix2 k q) : EReal) := by
  rw [Cert.ReferenceIdeal.Read.val_main_v0_apply]
  refine Finset.sum_congr rfl fun k _ => ?_
  have el : Cert.ReferenceIdeal.Read.lidx_main_v0 (ValueIdx.ix2 r q) k = ValueIdx.ix2 r k :=
    funext fun a => by match a with | ⟨0, _⟩ => rfl | ⟨1, _⟩ => rfl
  have er : Cert.ReferenceIdeal.Read.ridx_main_v0 (ValueIdx.ix2 r q) k = ValueIdx.ix2 k q :=
    funext fun a => by match a with | ⟨0, _⟩ => rfl | ⟨1, _⟩ => rfl
  rw [el, er]

/-! ## The block product at an entry -/

/-- The left operand's index at output entry i and contraction index κ has i's row. -/
private theorem lhs_h_0 (i : S128x256.Idx) (κ : dot_S128x20000_S20000x256_S128x256_1_0_0_1_n_n.contr.Idx) :
    (dot_S128x20000_S20000x256_S128x256_1_0_0_1_n_n.lhsIdx i κ 0).val = (i 0).val := by
  unfold DotDims.lhsIdx
  rw [dif_neg (show ¬(0 : Fin S128x20000.rank) ∈ dot_S128x20000_S20000x256_S128x256_1_0_0_1_n_n.lhsBatch by decide), dif_pos (show (0 : Fin S128x20000.rank) ∈ dot_S128x20000_S20000x256_S128x256_1_0_0_1_n_n.lhsNonContracting by decide)]
  rfl
/-- and κ's one coordinate as its column. -/
private theorem lhs_h_1 (i : S128x256.Idx) (κ : dot_S128x20000_S20000x256_S128x256_1_0_0_1_n_n.contr.Idx) :
    (dot_S128x20000_S20000x256_S128x256_1_0_0_1_n_n.lhsIdx i κ 1).val = (κ ⟨0, by decide⟩).val :=
  dot_S128x20000_S20000x256_S128x256_1_0_0_1_n_n.lhsIdx_val_of_single rfl i κ
/-- The right operand's index there has κ's one coordinate as its row -/
private theorem rhs_h_0 (i : S128x256.Idx) (κ : dot_S128x20000_S20000x256_S128x256_1_0_0_1_n_n.contr.Idx) :
    (dot_S128x20000_S20000x256_S128x256_1_0_0_1_n_n.rhsIdx i κ 0).val = (κ ⟨0, by decide⟩).val :=
  dot_S128x20000_S20000x256_S128x256_1_0_0_1_n_n.rhsIdx_val_of_single rfl i κ
/-- and i's column. -/
private theorem rhs_h_1 (i : S128x256.Idx) (κ : dot_S128x20000_S20000x256_S128x256_1_0_0_1_n_n.contr.Idx) :
    (dot_S128x20000_S20000x256_S128x256_1_0_0_1_n_n.rhsIdx i κ 1).val = (i 1).val := by
  unfold DotDims.rhsIdx
  rw [dif_neg (show ¬(1 : Fin S20000x256.rank) ∈ dot_S128x20000_S20000x256_S128x256_1_0_0_1_n_n.rhsBatch by decide), dif_pos (show (1 : Fin S20000x256.rank) ∈ dot_S128x20000_S20000x256_S128x256_1_0_0_1_n_n.rhsNonContracting by decide)]
  rfl

/-- Entry (p, q) of what one grid point stores: its 128 × 20000 block a times the whole 20000 × 256 matrix b, summed
    into zero. The change of a's float format and the cast of b to its own shape change nothing. -/
private theorem pay_h_apply (a : FVec Ideal S128x20000 .f32) (b : FVec Ideal S20000x256 .bf16) (p : Fin 128) (q : Fin 256) :
    k0_pay1 (F := Ideal) a b (ValueIdx.ix2 p q)
      = ∑ k : Fin 20000, (a (ValueIdx.ix2 p k) : EReal) * (b (ValueIdx.ix2 k q) : EReal) := by
  unfold k0_pay1
  rw [shapeCast_self]
  refine (Ideal.matmul_constant_zero_apply dot_S128x20000_S20000x256_S128x256_1_0_0_1_n_n none _ _ _).trans ?_
  rw [← Equiv.sum_comp (ValueIdx.contrEquiv1 dot_S128x20000_S20000x256_S128x256_1_0_0_1_n_n 20000 rfl rfl).symm]
  refine Finset.sum_congr rfl fun k _ => ?_
  have hk := ValueIdx.contrEquiv1_symm_val dot_S128x20000_S20000x256_S128x256_1_0_0_1_n_n 20000 rfl rfl k
  have el : dot_S128x20000_S20000x256_S128x256_1_0_0_1_n_n.lhsIdx (ValueIdx.ix2 p q) ((ValueIdx.contrEquiv1 dot_S128x20000_S20000x256_S128x256_1_0_0_1_n_n 20000 rfl rfl).symm k) = ValueIdx.ix2 p k := funext fun d => Fin.ext (by
    match d with
    | ⟨0, _⟩ => exact lhs_h_0 _ _
    | ⟨1, _⟩ => exact (lhs_h_1 _ _).trans hk)
  have er : dot_S128x20000_S20000x256_S128x256_1_0_0_1_n_n.rhsIdx (ValueIdx.ix2 p q) ((ValueIdx.contrEquiv1 dot_S128x20000_S20000x256_S128x256_1_0_0_1_n_n 20000 rfl rfl).symm k) = ValueIdx.ix2 k q := funext fun d => Fin.ext (by
    match d with
    | ⟨0, _⟩ => exact (rhs_h_0 _ _).trans hk
    | ⟨1, _⟩ => exact rhs_h_1 _ _)
  rw [el, er]
  rfl

/-- At grid point t, where the block a holds rows 128·t … 128·t + 127 of x and b holds W, entry (p, q) of the stored
    block is the reference's product at (128·t + p, q): the same sum over k, term by term. -/
private theorem pay_h_ref (x0 : (⟨S8192x20000, .f32⟩ : BufTy).Contents (Elt Ideal)) (x2 : (⟨S20000x256, .f32⟩ : BufTy).Contents (Elt Ideal))
    (a : FVec Ideal S128x20000 .f32) (b : FVec Ideal S20000x256 .bf16) (t : Nat) (ht : t < 64)
    (ha : ∀ (p : Fin 128) (k : Fin 20000), (a (ValueIdx.ix2 p k) : EReal) = x0 (ValueIdx.ix2 (⟨128 * t + p.val, by omega⟩ : Fin 8192) k))
    (hb : ∀ (k : Fin 20000) (q : Fin 256), (b (ValueIdx.ix2 k q) : EReal) = x2 (ValueIdx.ix2 k q))
    (p : Fin 128) (q : Fin 256) :
    k0_pay1 (F := Ideal) a b (ValueIdx.ix2 p q)
      = Cert.ReferenceIdeal.Read.val_main_v0 (F := Ideal) x0 x2 (ValueIdx.ix2 (⟨128 * t + p.val, by omega⟩ : Fin 8192) q) := by
  rw [pay_h_apply, ref_h_apply]
  exact Finset.sum_congr rfl fun k _ => by rw [ha, hb]

/-! ## From the blocks to the array -/

private theorem hz : (![0, 0] : Fin 2 → Nat) = fun _ => 0 := funext fun d => by fin_cases d <;> rfl

/-- The windows' block indices over the grid: point t reads row block t of x, the whole of W, and writes row block t of
    the product. -/
private theorem idx_h : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the reference's product. -/
private theorem flushed_h (V : (c : Dev nD) → (b : Ref sig .tc) → Buf (Elt Ideal) ((c : Thread nD τ).loc b)) (c : Dev nD)
    (x0 : (⟨S8192x20000, .f32⟩ : BufTy).Contents (Elt Ideal)) (x2 : (⟨S20000x256, .f32⟩ : BufTy).Contents (Elt Ideal))
    (h0 : V c main_arg0 = x0) (h2 : V c main_v0 = x2) (t : Fin cfg0.N) :
    (dat0 (F := Ideal) V c).flushed 2 t
      = ((cfg0.win 2).blk t).view.read (Elt Ideal) (Cert.ReferenceIdeal.Read.val_main_v0 (F := Ideal) x0 x2) := by
  show (cfg0.win 2).cut (grid0.coords t) ((dat0 (F := Ideal) V c).after 2 t) = _
  rw [after0_2]
  unfold out0_2
  rw [View.canon_unit_zero hz]
  simp only [View.ld_unit_zero (S := S128x20000) hz, View.ld_unit_zero (S := S20000x256) hz]
  obtain ⟨e00, e01, e10, e11, e20, e21⟩ := idx_h t
  have ht : t.val < 64 := lt_of_lt_of_eq t.isLt N_0
  have key : ∀ j : S128x256.Idx, k0_pay1 (F := Ideal) (iblk0 V c 0 t) (iblk0 V c 1 t) j
      = Cert.ReferenceIdeal.Read.val_main_v0 (F := Ideal) x0 x2 (((cfg0.win 2).blk t).view.emb j) := by
    intro j
    obtain ⟨p, q, rfl⟩ : ∃ (p : Fin 128) (q : Fin 256), j = ValueIdx.ix2 p q := ⟨j 0, j 1, ValueIdx.eq_ix2 j⟩
    refine (pay_h_ref x0 x2 _ _ t.val ht ?_ ?_ p q).trans (congrArg (Cert.ReferenceIdeal.Read.val_main_v0 (F := Ideal) x0 x2) ?_)
    · intro p' k
      show V c main_arg0 (((cfg0.win 0).blk t).view.emb (ValueIdx.ix2 p' k)) = _
      refine (congrFun h0 _).trans (congrArg x0 (funext fun d => Fin.ext ?_))
      match d with
      | ⟨0, _⟩ => show win0_0.index t (0 : Fin 2) * 128 + 1 * p'.val = 128 * t.val + p'.val; omega
      | ⟨1, _⟩ => show win0_0.index t (1 : Fin 2) * 20000 + 1 * k.val = k.val; omega
    · intro k q'
      show V c main_v0 (((cfg0.win 1).blk t).view.emb (ValueIdx.ix2 k q')) = _
      refine (congrFun h2 _).trans (congrArg x2 (funext fun d => Fin.ext ?_))
      match d with
      | ⟨0, _⟩ => show win0_1.index t (0 : Fin 2) * 20000 + 1 * k.val = k.val; omega
      | ⟨1, _⟩ => show win0_1.index t (1 : Fin 2) * 256 + 1 * q'.val = q'.val; omega
    · refine funext fun d => Fin.ext ?_
      match d with
      | ⟨0, _⟩ => show 128 * t.val + p.val = win0_2.index t (0 : Fin 2) * 128 + 1 * p.val; omega
      | ⟨1, _⟩ => show q.val = win0_2.index t (1 : Fin 2) * 256 + 1 * q.val; omega
  funext j
  exact key j

/-- An entry of the product's array is in point t's block iff each coordinate is in the block's range on its axis. -/
private theorem mem_blk_h (t : Fin cfg0.N) (i : S8192x256.Idx) :
    i ∈ ((cfg0.win 2).blk t).view.set ↔ ∀ d : Fin 2, win0_2.index t d * S128x256.size d ≤ (i d).val ∧ (i d).val < win0_2.index t d * S128x256.size d + S128x256.size d := by
  show i ∈ ((View.whole main_v4).slice (win0_2.rect t)).set ↔ _
  rw [View.set_slice_whole, Rect.mem_set_unit]
  exact Iff.rfl

/-- Every entry of the product's array is in some point's block: row r is in row block r / 128. -/
private theorem cover_h (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hlt : (i 0).val / 128 < cfg0.N := lt_of_lt_of_eq (show (i 0).val / 128 < 64 by omega) N_0.symm
  obtain ⟨-, -, -, -, e20, e21⟩ := idx_h ⟨(i 0).val / 128, hlt⟩
  have e20' : win0_2.index ⟨(i 0).val / 128, hlt⟩ (0 : Fin 2) = (i 0).val / 128 := e20
  refine ⟨⟨(i 0).val / 128, hlt⟩, flush0_2 _, ?_⟩
  rw [mem_blk_h]
  intro d
  match d with
  | ⟨0, _⟩ => show win0_2.index ⟨(i 0).val / 128, hlt⟩ (0 : Fin 2) * 128 ≤ (i 0).val ∧ (i 0).val < win0_2.index ⟨(i 0).val / 128, hlt⟩ (0 : Fin 2) * 128 + 128; omega
  | ⟨1, _⟩ => show win0_2.index ⟨(i 0).val / 128, hlt⟩ (1 : Fin 2) * 256 ≤ (i 1).val ∧ (i 1).val < win0_2.index ⟨(i 0).val / 128, hlt⟩ (1 : Fin 2) * 256 + 256; omega

/-- After the first region the product's array holds the reference's x · W_gcn, when the region was entered with x in
    its first window's array and W_gcn (in either float format) in its second's. -/
theorem arr_h (V : (c : Dev nD) → (b : Ref sig .tc) → Buf (Elt Ideal) ((c : Thread nD τ).loc b)) (c : Dev nD)
    (x0 : (⟨S8192x20000, .f32⟩ : BufTy).Contents (Elt Ideal)) (x2 : (⟨S20000x256, .f32⟩ : BufTy).Contents (Elt Ideal))
    (h0 : V c main_arg0 = x0) (h2 : V c main_v0 = x2) :
    (dat0 (F := Ideal) V c).arrAt 2 cfg0.N = Cert.ReferenceIdeal.Read.val_main_v0 x0 x2 :=
  (dat0 (F := Ideal) V c).arrAt_eq_of_cover 2 (Cert.ReferenceIdeal.Read.val_main_v0 (F := Ideal) x0 x2)
    (fun t _ => flushed_h V c x0 x2 h0 h2 t) cover_h

end Cert.KernelIdeal.RegionH

end
-- ==== Proof.RegionLat.lean ====
/-
  The latent code, latent = relu(g) · W_enc + b_enc, as the second region leaves it in its first output.
  The region tiles the 8192 rows of the aggregated features g into 8 blocks of 1024 rows; a grid point clamps its
  block at zero, multiplies it by the whole encoder matrix into a zero accumulator and adds the bias row to every row.
  Entry (i, j) of the output is therefore the sum over k of max(g(i, k), 0) · W_enc(k, j), plus b_enc(j): the
  reference's latent code read at (i, j).
-/
import proofs.«170142_j45904610459855_1_alg».proof.Proof.Gen.KernelIdeal.Frame
import proofs.«170142_j45904610459855_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionLat

open Cert.KernelIdeal Cert.KernelIdeal.Gen

/-- The left operand's row coordinate at an output index is the output's row. -/
private theorem lhs_lat_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
/-- The left operand's column coordinate is the contraction index. -/
private theorem lhs_lat_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
/-- The right operand's row coordinate is the contraction index. -/
private theorem rhs_lat_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
/-- The right operand's column coordinate at an output index is the output's column. -/
private theorem rhs_lat_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The block product into a zero accumulator, read at (p, q): the sum over the 256 contracted columns of the left
    operand's row p times the right operand's column q. -/
private theorem matmul_lat_apply (l : FVec Ideal S1024x256 .bf16) (r : FVec Ideal S256x64 .bf16) (p : Fin 1024) (q : Fin 64) :
    matmul dot_S1024x256_S256x64_S1024x64_1_0_0_1_n_n none l r (constant (F := Ideal) S1024x64 .f32 0x00000000#32) (ValueIdx.ix2 p q)
      = ∑ k : Fin 256, l (ValueIdx.ix2 p k) * r (ValueIdx.ix2 k q) := by
  simp only [matmul]
  rw [Ideal.matmul_constant_zero_apply, ← Equiv.sum_comp (ValueIdx.contrEquiv1 dot_S1024x256_S256x64_S1024x64_1_0_0_1_n_n 256 rfl rfl).symm]
  refine Finset.sum_congr rfl fun k _ => ?_
  have hk := ValueIdx.contrEquiv1_symm_val dot_S1024x256_S256x64_S1024x64_1_0_0_1_n_n 256 rfl rfl k
  have el : dot_S1024x256_S256x64_S1024x64_1_0_0_1_n_n.lhsIdx (ValueIdx.ix2 p q) ((ValueIdx.contrEquiv1 dot_S1024x256_S256x64_S1024x64_1_0_0_1_n_n 256 rfl rfl).symm k) = ValueIdx.ix2 p k := funext fun a => Fin.ext (by
    match a with
    | ⟨0, _⟩ => exact lhs_lat_0 _ _
    | ⟨1, _⟩ => exact (lhs_lat_1 _ _).trans hk)
  have er : dot_S1024x256_S256x64_S1024x64_1_0_0_1_n_n.rhsIdx (ValueIdx.ix2 p q) ((ValueIdx.contrEquiv1 dot_S1024x256_S256x64_S1024x64_1_0_0_1_n_n 256 rfl rfl).symm k) = ValueIdx.ix2 k q := funext fun a => Fin.ext (by
    match a with
    | ⟨0, _⟩ => exact (rhs_lat_0 _ _).trans hk
    | ⟨1, _⟩ => exact rhs_lat_1 _ _)
  rw [el, er]

/-- The body's first stored value at (p, q), from its three loaded blocks: the clamped row p of the feature block
    against column q of the encoder matrix, plus the bias row's entry q. -/
private theorem pay_lat_blocks (gblk : Vec Ideal S1024x256 .f32) (we : Vec Ideal S256x64 .bf16) (be : Vec Ideal S1x64 .f32)
    (p : Fin 1024) (q : Fin 64) :
    k1_pay1 (F := Ideal) gblk we be (ValueIdx.ix2 p q)
      = (∑ k : Fin 256, max (gblk (ValueIdx.ix2 p k)) (Ideal.ofBits .f32 0x00000000#32) * we (ValueIdx.ix2 k q))
        + be (ValueIdx.ix2 (0 : Fin 1) q) := by
  unfold k1_pay1
  rw [shapeCast_self, shapeCast_self, shapeCast_self, ValueIdx.addf_apply, matmul_lat_apply, ValueIdx.broadcastTo_1b_ab_apply]
  rfl

/-- The reference's latent code at row r, column q: the sum over the 256 feature columns of the clamped aggregated
    feature at (r, k) times the encoder matrix at (k, q), plus the bias at q. -/
private theorem ref_lat_apply (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (r : Fin 8192) (q : Fin 64) :
    Cert.ReferenceIdeal.Read.val_main_v52 (F := Ideal) x0 x1 x2 x3 x4 x5 (ValueIdx.ix2 r q)
      = (∑ k : Fin 256, max (Cert.ReferenceIdeal.Read.val_main_v46 (F := Ideal) x0 x1 x2 x3 (ValueIdx.ix2 r k)) (Ideal.ofBits .f32 0x00000000#32) * x4 (ValueIdx.ix2 k q))
        + x5 (ValueIdx.ix1 q) := by
  have hl : ∀ k : Fin 256, Cert.ReferenceIdeal.Read.lidx_main_v49 (ValueIdx.ix2 r q) k = ValueIdx.ix2 r k :=
    fun k => funext fun a => by match a with | ⟨0, _⟩ => rfl | ⟨1, _⟩ => rfl
  have hr : ∀ k : Fin 256, Cert.ReferenceIdeal.Read.ridx_main_v49 (ValueIdx.ix2 r q) k = ValueIdx.ix2 k q :=
    fun k => funext fun a => by match a with | ⟨0, _⟩ => rfl | ⟨1, _⟩ => rfl
  have hb : Cert.ReferenceIdeal.Read.idx_main_v50 (Cert.ReferenceIdeal.Read.idx_main_v51 (ValueIdx.ix2 r q)) = ValueIdx.ix1 q :=
    funext fun a => by match a with | ⟨0, _⟩ => rfl
  rw [Cert.ReferenceIdeal.Read.val_main_v52_apply, Cert.ReferenceIdeal.Read.val_main_v49_apply,
    Cert.ReferenceIdeal.Read.val_main_v51_apply, Cert.ReferenceIdeal.Read.val_main_v50_apply, hb]
  refine congrArg (· + x5 (ValueIdx.ix1 q)) (Finset.sum_congr rfl fun k _ => ?_)
  rw [hl k, hr k, Cert.ReferenceIdeal.Read.val_main_v48_apply, Cert.ReferenceIdeal.Read.val_main_v47_apply,
    Cert.ReferenceIdeal.Read.val_main_cst_9_apply]
  rfl

/-- Row p of the block of point t is a row of the 8192-row arrays. -/
private theorem row_lt (t : Fin cfg1.N) (p : Fin 1024) : 1024 * t.val + p.val < 8192 := by
  have h : t.val < 8 := lt_of_lt_of_eq t.isLt N_1
  omega

/-- Both literal zero offsets as one constant function. -/
private theorem hz_lat : (![0, 0] : Fin 2 → Nat) = fun _ => 0 := funext fun a => by fin_cases a <;> rfl

/-- The region's index maps over its 8 grid points: the feature window and the output window move down one block of
    rows per point and never sideways; the encoder matrix and the bias row stay at block (0, 0). -/
private theorem idx_lat : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_5.index t (0 : Fin 2) = t.val ∧ win1_5.index t (1 : Fin 2) = 0 :=
  (by decide +kernel : ∀ t : Fin grid1.N, _)

/-- Row p, column k of the feature window's block at point t is row 1024·t + p, column k of the feature array. -/
private theorem blk_g (V : (c : Dev nD) → (b : Ref sig .tc) → Buf (Elt Ideal) ((c : Thread nD τ).loc b)) (c : Dev nD)
    (t : Fin cfg1.N) (p : Fin 1024) (k : Fin 256) :
    iblk1 (F := Ideal) V c 0 t (ValueIdx.ix2 p k)
      = V c main_v50 (ValueIdx.ix2 (⟨1024 * t.val + p.val, row_lt t p⟩ : Fin 8192) k) := by
  obtain ⟨e0, e1, -⟩ := idx_lat t
  show V c main_v50 (((cfg1.win 0).blk t).view.emb (ValueIdx.ix2 p k)) = _
  refine congrArg (V c main_v50) (funext fun a => Fin.ext ?_)
  match a with
  | ⟨0, _⟩ => show win1_0.index t (0 : Fin 2) * 1024 + 1 * p.val = 1024 * t.val + p.val; omega
  | ⟨1, _⟩ => show win1_0.index t (1 : Fin 2) * 256 + 1 * k.val = k.val; omega

/-- The encoder matrix's one block is the whole matrix. -/
private theorem blk_we (V : (c : Dev nD) → (b : Ref sig .tc) → Buf (Elt Ideal) ((c : Thread nD τ).loc b)) (c : Dev nD)
    (t : Fin cfg1.N) (k : Fin 256) (q : Fin 64) :
    iblk1 (F := Ideal) V c 1 t (ValueIdx.ix2 k q) = V c main_v1 (ValueIdx.ix2 k q) := by
  obtain ⟨-, -, e0, e1, -⟩ := idx_lat t
  show V c main_v1 (((cfg1.win 1).blk t).view.emb (ValueIdx.ix2 k q)) = _
  refine congrArg (V c main_v1) (funext fun a => Fin.ext ?_)
  match a with
  | ⟨0, _⟩ => show win1_1.index t (0 : Fin 2) * 256 + 1 * k.val = k.val; omega
  | ⟨1, _⟩ => show win1_1.index t (1 : Fin 2) * 64 + 1 * q.val = q.val; omega

/-- The bias row's one block is the whole row. -/
private theorem blk_be (V : (c : Dev nD) → (b : Ref sig .tc) → Buf (Elt Ideal) ((c : Thread nD τ).loc b)) (c : Dev nD)
    (t : Fin cfg1.N) (z : Fin 1) (q : Fin 64) :
    iblk1 (F := Ideal) V c 2 t (ValueIdx.ix2 z q) = V c main_v51 (ValueIdx.ix2 z q) := by
  obtain ⟨-, -, -, -, e0, e1, -⟩ := idx_lat t
  show V c main_v51 (((cfg1.win 2).blk t).view.emb (ValueIdx.ix2 z q)) = _
  refine congrArg (V c main_v51) (funext fun a => Fin.ext ?_)
  match a with
  | ⟨0, _⟩ => show win1_2.index t (0 : Fin 2) * 1 + 1 * z.val = z.val; omega
  | ⟨1, _⟩ => show win1_2.index t (1 : Fin 2) * 64 + 1 * q.val = q.val; omega

/-- An index of the output array is in point t's block iff each coordinate is in the block's range on its axis. -/
private theorem mem_blk_lat (t : Fin cfg1.N) (i : S8192x64.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v53_0).slice (win1_5.rect t)).set ↔ _
  rw [View.set_slice_whole, Rect.mem_set_unit]
  exact Iff.rfl

/-- Every row of the output array lies in the block of the point numbered by its quotient by 1024. -/
private theorem cover_lat (i : S8192x64.Idx) :
    ∃ t : Fin cfg1.N, (cfg1.win 5).flush t = true ∧ i ∈ ((cfg1.win 5).blk t).view.set := by
  have hi0 : (i 0).val < 8192 := (i 0).isLt
  have hi1 : (i 1).val < 64 := (i 1).isLt
  have hN : cfg1.N = 8 := N_1
  refine ⟨⟨(i 0).val / 1024, by rw [hN]; omega⟩, flush1_5 _, ?_⟩
  obtain ⟨-, -, -, -, -, -, e0, e1⟩ := idx_lat ⟨(i 0).val / 1024, by rw [hN]; omega⟩
  rw [mem_blk_lat]
  intro a
  match a with
  | ⟨0, _⟩ => show win1_5.index _ (0 : Fin 2) * 1024 ≤ (i 0).val ∧ (i 0).val < win1_5.index _ (0 : Fin 2) * 1024 + 1024; rw [e0]; show (i 0).val / 1024 * 1024 ≤ (i 0).val ∧ (i 0).val < (i 0).val / 1024 * 1024 + 1024; omega
  | ⟨1, _⟩ => show win1_5.index _ (1 : Fin 2) * 64 ≤ (i 1).val ∧ (i 1).val < win1_5.index _ (1 : Fin 2) * 64 + 64; rw [e1]; omega

/-- The output array after the region is any function G of the array's index that every point's stored value
    agrees with on its own 1024 rows. -/
private theorem arr_of_rows (V : (c : Dev nD) → (b : Ref sig .tc) → Buf (Elt Ideal) ((c : Thread nD τ).loc b)) (c : Dev nD)
    (G : (⟨S8192x64, .f32⟩ : BufTy).Contents (Elt Ideal))
    (hpay : ∀ (t : Fin cfg1.N) (p : Fin 1024) (q : Fin 64),
      k1_pay1 (F := Ideal) (iblk1 V c 0 t) (iblk1 V c 1 t) (iblk1 V c 2 t) (ValueIdx.ix2 p q)
        = G (ValueIdx.ix2 (⟨1024 * t.val + p.val, row_lt t p⟩ : Fin 8192) q)) :
    (dat1 (F := Ideal) V c).arrAt 5 cfg1.N = G := by
  refine (dat1 (F := Ideal) V c).arrAt_eq_of_cover 5 G (fun t _ => ?_) cover_lat
  show (cfg1.win 5).cut (grid1.coords t) ((dat1 (F := Ideal) V c).after 5 t) = _
  rw [after1_5]
  unfold out1_5
  rw [View.canon_unit_zero hz_lat]
  simp only [View.ld_unit_zero (S := S1024x256) hz_lat, View.ld_unit_zero (S := S256x64) hz_lat, View.ld_unit_zero (S := S1x64) hz_lat]
  obtain ⟨-, -, -, -, -, -, e0, e1⟩ := idx_lat t
  funext j
  obtain ⟨p, q, rfl⟩ : ∃ (p : Fin 1024) (q : Fin 64), j = ValueIdx.ix2 p q := ⟨j 0, j 1, ValueIdx.eq_ix2 j⟩
  refine (hpay t p q).trans ?_
  show G _ = G (((cfg1.win 5).blk t).view.emb (ValueIdx.ix2 p q))
  refine congrArg G (funext fun a => Fin.ext ?_)
  match a with
  | ⟨0, _⟩ => show 1024 * t.val + p.val = win1_5.index t (0 : Fin 2) * 1024 + 1 * p.val; omega
  | ⟨1, _⟩ => show q.val = win1_5.index t (1 : Fin 2) * 64 + 1 * q.val; omega

/-- The body's first stored value at row p, column q of the block, when its rows are rows 1024·t + p of the
    reference's aggregated features: the reference's latent code at (1024·t + p, q). -/
theorem pay_lat_apply (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (gblk : Vec Ideal S1024x256 .f32) (we : Vec Ideal S256x64 .bf16) (be : Vec Ideal S1x64 .f32) (t : Fin 8)
    (hg : ∀ (p : Fin 1024) (k : Fin 256), gblk (ValueIdx.ix2 p k) = Cert.ReferenceIdeal.Read.val_main_v46 x0 x1 x2 x3 (ValueIdx.ix2 (⟨1024 * t.val + p.val, by omega⟩ : Fin 8192) k))
    (hwe : ∀ (k : Fin 256) (q : Fin 64), we (ValueIdx.ix2 k q) = x4 (ValueIdx.ix2 k q))
    (hbe : ∀ (z : Fin 1) (q : Fin 64), be (ValueIdx.ix2 z q) = x5 (ValueIdx.ix1 q))
    (p : Fin 1024) (q : Fin 64) :
    k1_pay1 (F := Ideal) gblk we be (ValueIdx.ix2 p q)
      = Cert.ReferenceIdeal.Read.val_main_v52 x0 x1 x2 x3 x4 x5 (ValueIdx.ix2 (⟨1024 * t.val + p.val, by omega⟩ : Fin 8192) q) := by
  rw [pay_lat_blocks, ref_lat_apply, hbe 0 q]
  refine congrArg (· + x5 (ValueIdx.ix1 q)) (Finset.sum_congr rfl fun k _ => ?_)
  rw [hg p k, hwe k q]

/-- After the second region its first output array holds the reference's latent code, when the region was entered with
    the reference's aggregated features, the encoder matrix and the bias (as one row). -/
theorem arr_lat (V : (c : Dev nD) → (b : Ref sig .tc) → Buf (Elt Ideal) ((c : Thread nD τ).loc b)) (c : Dev nD)
    (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (hg : V c main_v50 = Cert.ReferenceIdeal.Read.val_main_v46 x0 x1 x2 x3) (hwe : V c main_v1 = x4)
    (hbe : V c main_v51 = shapeCast S1x64 x5 shapeCasts_S64_S1x64) :
    (dat1 (F := Ideal) V c).arrAt 5 cfg1.N = Cert.ReferenceIdeal.Read.val_main_v52 x0 x1 x2 x3 x4 x5 := by
  refine arr_of_rows V c _ fun t p q => ?_
  refine pay_lat_apply x0 x1 x2 x3 x4 x5 (iblk1 V c 0 t) (iblk1 V c 1 t) (iblk1 V c 2 t) (t.cast N_1) ?_ ?_ ?_ p q
  · intro p k
    exact (blk_g V c t p k).trans (congrFun hg _)
  · intro k q
    exact (blk_we V c t k q).trans (congrFun hwe _)
  · intro z q
    refine (blk_be V c t z q).trans ?_
    rw [hbe]
    exact ValueIdx.shapeCast_a_1a_apply x5 _ z q

end Cert.KernelIdeal.RegionLat

end
-- ==== Proof.RegionDh.lean ====
/-
  The decoder's hidden layer, dh = relu(latent · W_dec1 + b_dec1), as the second region leaves it in its second output.
  A grid point recomputes its 1024 rows of the latent code (the value it has just stored), multiplies them by the whole
  first decoder matrix into a zero accumulator, adds the bias row to every row and clamps at zero. Entry (i, j) is
  therefore max(sum over k of latent(i, k) · W_dec1(k, j) + b_dec1(j), 0): the reference's hidden layer read at (i, j).
-/
import proofs.«170142_j45904610459855_1_alg».proof.Proof.RegionLat

set_option maxRecDepth 16384

noncomputable section

open Idealize.ShloMosaic Idealize.ShloMosaic.TcCoe Idealize.SL.Sem
open Idealize.ShloMosaic.Pipeline (Dat)

namespace Cert.KernelIdeal.RegionDh

open Cert.KernelIdeal Cert.KernelIdeal.Gen

/-! ## The block product at an index -/

/-- The left operand's index at output index `i` and contraction index `q` keeps the output's row. -/
private theorem lhs_row (i : S1024x256.Idx) (q : dot_S1024x64_S64x256_S1024x256_1_0_0_1_n_n.contr.Idx) :
    (dot_S1024x64_S64x256_S1024x256_1_0_0_1_n_n.lhsIdx i q 0).val = (i 0).val := by
  unfold DotDims.lhsIdx
  rw [dif_neg (show ¬(0 : Fin S1024x64.rank) ∈ dot_S1024x64_S64x256_S1024x256_1_0_0_1_n_n.lhsBatch by decide), dif_pos (show (0 : Fin S1024x64.rank) ∈ dot_S1024x64_S64x256_S1024x256_1_0_0_1_n_n.lhsNonContracting by decide)]
  rfl
/-- Its column is the contraction coordinate. -/
private theorem lhs_col (i : S1024x256.Idx) (q : dot_S1024x64_S64x256_S1024x256_1_0_0_1_n_n.contr.Idx) :
    (dot_S1024x64_S64x256_S1024x256_1_0_0_1_n_n.lhsIdx i q 1).val = (q ⟨0, by decide⟩).val :=
  dot_S1024x64_S64x256_S1024x256_1_0_0_1_n_n.lhsIdx_val_of_single rfl i q
/-- The right operand's row is the contraction coordinate. -/
private theorem rhs_row (i : S1024x256.Idx) (q : dot_S1024x64_S64x256_S1024x256_1_0_0_1_n_n.contr.Idx) :
    (dot_S1024x64_S64x256_S1024x256_1_0_0_1_n_n.rhsIdx i q 0).val = (q ⟨0, by decide⟩).val :=
  dot_S1024x64_S64x256_S1024x256_1_0_0_1_n_n.rhsIdx_val_of_single rfl i q
/-- Its column is the output's column. -/
private theorem rhs_col (i : S1024x256.Idx) (q : dot_S1024x64_S64x256_S1024x256_1_0_0_1_n_n.contr.Idx) :
    (dot_S1024x64_S64x256_S1024x256_1_0_0_1_n_n.rhsIdx i q 1).val = (i 1).val := by
  unfold DotDims.rhsIdx
  rw [dif_neg (show ¬(1 : Fin S64x256.rank) ∈ dot_S1024x64_S64x256_S1024x256_1_0_0_1_n_n.rhsBatch by decide), dif_pos (show (1 : Fin S64x256.rank) ∈ dot_S1024x64_S64x256_S1024x256_1_0_0_1_n_n.rhsNonContracting by decide)]
  rfl

/-- A [1024,64] block times a [64,256] matrix into a zero accumulator, read at (p, q): the sum over the 64 inner
    coordinates k of left(p, k) · right(k, q). -/
private theorem mm_apply (lat : FVec Ideal S1024x64 .bf16) (wd : FVec Ideal S64x256 .bf16) (p : Fin 1024) (q : Fin 256) :
    matmul dot_S1024x64_S64x256_S1024x256_1_0_0_1_n_n none lat wd (constant (F := Ideal) S1024x256 .f32 0x00000000#32) (ValueIdx.ix2 p q)
      = ∑ k : Fin 64, lat (ValueIdx.ix2 p k) * wd (ValueIdx.ix2 k q) := by
  show FloatOps.matmul dot_S1024x64_S64x256_S1024x256_1_0_0_1_n_n none lat wd (constant (F := Ideal) S1024x256 .f32 0x00000000#32) (ValueIdx.ix2 p q) = _
  rw [Ideal.matmul_constant_zero_apply, ← Equiv.sum_comp (ValueIdx.contrEquiv1 dot_S1024x64_S64x256_S1024x256_1_0_0_1_n_n 64 rfl rfl).symm]
  refine Finset.sum_congr rfl fun k _ => ?_
  have hk := ValueIdx.contrEquiv1_symm_val dot_S1024x64_S64x256_S1024x256_1_0_0_1_n_n 64 rfl rfl k
  have el : dot_S1024x64_S64x256_S1024x256_1_0_0_1_n_n.lhsIdx (ValueIdx.ix2 p q) ((ValueIdx.contrEquiv1 dot_S1024x64_S64x256_S1024x256_1_0_0_1_n_n 64 rfl rfl).symm k) = ValueIdx.ix2 p k := funext fun a => Fin.ext (by
    match a with
    | ⟨0, _⟩ => exact lhs_row _ _
    | ⟨1, _⟩ => exact (lhs_col _ _).trans hk)
  have er : dot_S1024x64_S64x256_S1024x256_1_0_0_1_n_n.rhsIdx (ValueIdx.ix2 p q) ((ValueIdx.contrEquiv1 dot_S1024x64_S64x256_S1024x256_1_0_0_1_n_n 64 rfl rfl).symm k) = ValueIdx.ix2 k q := funext fun a => Fin.ext (by
    match a with
    | ⟨0, _⟩ => exact (rhs_row _ _).trans hk
    | ⟨1, _⟩ => exact rhs_col _ _)
  rw [el, er]

/-! ## The reference's index maps at an index given by its coordinates -/

private theorem lidx_ix2 (r : Fin 8192) (q : Fin 256) (k : Fin 64) :
    Cert.ReferenceIdeal.Read.lidx_main_v53 (ValueIdx.ix2 r q) k = ValueIdx.ix2 r k :=
  funext fun a => match a with | ⟨0, _⟩ => rfl | ⟨1, _⟩ => rfl
private theorem ridx_ix2 (r : Fin 8192) (q : Fin 256) (k : Fin 64) :
    Cert.ReferenceIdeal.Read.ridx_main_v53 (ValueIdx.ix2 r q) k = ValueIdx.ix2 k q :=
  funext fun a => match a with | ⟨0, _⟩ => rfl | ⟨1, _⟩ => rfl
private theorem bias_ix2 (r : Fin 8192) (q : Fin 256) :
    Cert.ReferenceIdeal.Read.idx_main_v54 (Cert.ReferenceIdeal.Read.idx_main_v55 (ValueIdx.ix2 r q)) = ValueIdx.ix1 q :=
  funext fun a => match a with | ⟨0, _⟩ => rfl

/-! ## The body's second stored value at an index -/

/-- The body's second stored value at row p, column q of the block, when the block's rows are rows 1024·t + p of the
    reference's aggregated features and the four parameter windows hold the reference's parameters: the reference's
    hidden decoder layer at (1024·t + p, q). The sum over k of latent(1024·t + p, k) · W_dec1(k, q) is the same sum on
    both sides term by term (the latent code by the first stored value's lemma), the bias is b_dec1(q) on both, and
    both clamp at the same zero. -/
theorem pay_dh_apply (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal))
    (gblk : Vec Ideal S1024x256 .f32) (we : Vec Ideal S256x64 .bf16) (be : Vec Ideal S1x64 .f32)
    (wd : Vec Ideal S64x256 .bf16) (bd : Vec Ideal S1x256 .f32) (t : Fin 8)
    (hg : ∀ (p : Fin 1024) (k : Fin 256), gblk (ValueIdx.ix2 p k) = Cert.ReferenceIdeal.Read.val_main_v46 x0 x1 x2 x3 (ValueIdx.ix2 (⟨1024 * t.val + p.val, by omega⟩ : Fin 8192) k))
    (hwe : ∀ (k : Fin 256) (q : Fin 64), we (ValueIdx.ix2 k q) = x4 (ValueIdx.ix2 k q))
    (hbe : ∀ (z : Fin 1) (q : Fin 64), be (ValueIdx.ix2 z q) = x5 (ValueIdx.ix1 q))
    (hwd : ∀ (k : Fin 64) (q : Fin 256), wd (ValueIdx.ix2 k q) = x6 (ValueIdx.ix2 k q))
    (hbd : ∀ (z : Fin 1) (q : Fin 256), bd (ValueIdx.ix2 z q) = x7 (ValueIdx.ix1 q))
    (p : Fin 1024) (q : Fin 256) :
    k1_pay2 (F := Ideal) gblk we be wd bd (ValueIdx.ix2 p q)
      = Cert.ReferenceIdeal.Read.val_main_v58 x0 x1 x2 x3 x4 x5 x6 x7 (ValueIdx.ix2 (⟨1024 * t.val + p.val, by omega⟩ : Fin 8192) q) := by
  have hpay : k1_pay2 (F := Ideal) gblk we be wd bd (ValueIdx.ix2 p q)
      = max (matmul dot_S1024x64_S64x256_S1024x256_1_0_0_1_n_n none (truncf .bf16 (k1_pay1 (F := Ideal) gblk we be) bitsLt_bf16_f32) (shapeCast S64x256 wd shapeCasts_S64x256_S64x256) (constant (F := Ideal) S1024x256 .f32 0x00000000#32) (ValueIdx.ix2 p q)
            + broadcastTo S1024x256 (shapeCast S1x256 bd shapeCasts_S1x256_S1x256) broadcasts_S1x256_S1024x256 (ValueIdx.ix2 p q))
          (Ideal.ofBits .f32 0x00000000#32) := rfl
  rw [hpay, mm_apply, ValueIdx.broadcastTo_1b_ab_apply, shapeCast_self, shapeCast_self]
  rw [Cert.ReferenceIdeal.Read.val_main_v58_apply, Cert.ReferenceIdeal.Read.val_main_v56_apply, Cert.ReferenceIdeal.Read.val_main_v53_apply, Cert.ReferenceIdeal.Read.val_main_v55_apply, Cert.ReferenceIdeal.Read.val_main_v54_apply, Cert.ReferenceIdeal.Read.val_main_v57_apply, Cert.ReferenceIdeal.Read.val_main_cst_10_apply, bias_ix2]
  show max (_ + _) _ = max (_ + _) _
  refine congrArg₂ max (congrArg₂ (· + ·) (Finset.sum_congr rfl fun k _ => ?_) (hbd 0 q)) rfl
  rw [lidx_ix2, ridx_ix2]
  show k1_pay1 (F := Ideal) gblk we be (ValueIdx.ix2 p k) * wd (ValueIdx.ix2 k q) = _
  rw [Cert.KernelIdeal.RegionLat.pay_lat_apply x0 x1 x2 x3 x4 x5 gblk we be t hg hwe hbe p k, hwd k q]

/-! ## From the blocks to the array -/

private theorem hz : (![0, 0] : Fin 2 → Nat) = fun _ => 0 := funext fun a => by fin_cases a <;> rfl

/-- The windows' block indices over the grid: the features' and the output's blocks move down the rows with the
    point, one block of 1024 rows a point; the four parameter windows stay at their one whole block. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = t.val ∧ win1_6.index t (1 : Fin 2) = 0 :=
  (by decide +kernel : ∀ t : Fin grid1.N, _)

/-- What point t writes back to the output is block t of the reference's hidden layer. -/
private theorem flushed_dh (V : (c : Dev nD) → (b : Ref sig .tc) → Buf (Elt Ideal) ((c : Thread nD τ).loc b)) (c : Dev nD)
    (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal))
    (hg : V c main_v50 = Cert.ReferenceIdeal.Read.val_main_v46 x0 x1 x2 x3) (hwe : V c main_v1 = x4)
    (hbe : V c main_v51 = shapeCast S1x64 x5 shapeCasts_S64_S1x64)
    (hwd : V c main_v2 = x6) (hbd : V c main_v52 = shapeCast S1x256 x7 shapeCasts_S256_S1x256) (t : Fin cfg1.N) :
    (dat1 (F := Ideal) V c).flushed 6 t = ((cfg1.win 6).blk t).view.read (Elt Ideal) (Cert.ReferenceIdeal.Read.val_main_v58 x0 x1 x2 x3 x4 x5 x6 x7) := by
  show (cfg1.win 6).cut (grid1.coords t) ((dat1 (F := Ideal) V c).after 6 t) = _
  rw [after1_6]
  unfold out1_6
  rw [View.canon_unit_zero hz]
  simp only [View.ld_unit_zero (S := S1024x256) hz, View.ld_unit_zero (S := S256x64) hz, View.ld_unit_zero (S := S1x64) hz, View.ld_unit_zero (S := S64x256) hz, View.ld_unit_zero (S := S1x256) hz]
  obtain ⟨a00, a01, a10, a11, a20, a21, a30, a31, a40, a41, a60, a61⟩ := idx_facts t
  have hN : grid1.N = 8 := N_1
  have htlt : t.val < grid1.N := t.isLt
  have ht8 : t.val < 8 := by omega
  funext j
  have hj0 : (j 0).val < 1024 := (j 0).isLt
  have hj1 : (j 1).val < 256 := (j 1).isLt
  show k1_pay2 (F := Ideal) (iblk1 V c 0 t) (iblk1 V c 1 t) (iblk1 V c 2 t) (iblk1 V c 3 t) (iblk1 V c 4 t) (ValueIdx.ix2 (⟨(j 0).val, hj0⟩ : Fin 1024) (⟨(j 1).val, hj1⟩ : Fin 256))
      = Cert.ReferenceIdeal.Read.val_main_v58 x0 x1 x2 x3 x4 x5 x6 x7 (((cfg1.win 6).blk t).view.emb j)
  refine (pay_dh_apply x0 x1 x2 x3 x4 x5 x6 x7 (iblk1 V c 0 t) (iblk1 V c 1 t) (iblk1 V c 2 t) (iblk1 V c 3 t) (iblk1 V c 4 t) (⟨t.val, ht8⟩ : Fin 8) ?_ ?_ ?_ ?_ ?_ ⟨(j 0).val, hj0⟩ ⟨(j 1).val, hj1⟩).trans (congrArg _ ?_)
  · intro p k
    show V c main_v50 (((cfg1.win 0).blk t).view.emb (ValueIdx.ix2 p k)) = _
    rw [hg]
    refine congrArg _ (funext fun a => Fin.ext ?_)
    match a with
    | ⟨0, _⟩ => show win1_0.index t (0 : Fin 2) * 1024 + 1 * p.val = 1024 * t.val + p.val; omega
    | ⟨1, _⟩ => show win1_0.index t (1 : Fin 2) * 256 + 1 * k.val = k.val; omega
  · intro k q
    show V c main_v1 (((cfg1.win 1).blk t).view.emb (ValueIdx.ix2 k q)) = _
    rw [hwe]
    refine congrArg _ (funext fun a => Fin.ext ?_)
    match a with
    | ⟨0, _⟩ => show win1_1.index t (0 : Fin 2) * 256 + 1 * k.val = k.val; omega
    | ⟨1, _⟩ => show win1_1.index t (1 : Fin 2) * 64 + 1 * q.val = q.val; omega
  · intro z q
    show V c main_v51 (((cfg1.win 2).blk t).view.emb (ValueIdx.ix2 z q)) = _
    rw [hbe]
    refine (congrArg _ (funext fun a => Fin.ext ?_)).trans (ValueIdx.shapeCast_a_1a_apply x5 shapeCasts_S64_S1x64 z q)
    match a with
    | ⟨0, _⟩ => show win1_2.index t (0 : Fin 2) * 1 + 1 * z.val = z.val; omega
    | ⟨1, _⟩ => show win1_2.index t (1 : Fin 2) * 64 + 1 * q.val = q.val; omega
  · intro k q
    show V c main_v2 (((cfg1.win 3).blk t).view.emb (ValueIdx.ix2 k q)) = _
    rw [hwd]
    refine congrArg _ (funext fun a => Fin.ext ?_)
    match a with
    | ⟨0, _⟩ => show win1_3.index t (0 : Fin 2) * 64 + 1 * k.val = k.val; omega
    | ⟨1, _⟩ => show win1_3.index t (1 : Fin 2) * 256 + 1 * q.val = q.val; omega
  · intro z q
    show V c main_v52 (((cfg1.win 4).blk t).view.emb (ValueIdx.ix2 z q)) = _
    rw [hbd]
    refine (congrArg _ (funext fun a => Fin.ext ?_)).trans (ValueIdx.shapeCast_a_1a_apply x7 shapeCasts_S256_S1x256 z q)
    match a with
    | ⟨0, _⟩ => show win1_4.index t (0 : Fin 2) * 1 + 1 * z.val = z.val; omega
    | ⟨1, _⟩ => show win1_4.index t (1 : Fin 2) * 256 + 1 * q.val = q.val; omega
  · funext a; apply Fin.ext
    match a with
    | ⟨0, _⟩ => show 1024 * t.val + (j 0).val = win1_6.index t (0 : Fin 2) * 1024 + 1 * (j 0).val; omega
    | ⟨1, _⟩ => show (j 1).val = win1_6.index t (1 : Fin 2) * 256 + 1 * (j 1).val; omega

/-- An index of the array is in point t's block iff each coordinate is in the block's range on its axis. -/
private theorem mem_blk_dh (t : Fin cfg1.N) (i : S8192x256.Idx) :
    i ∈ ((cfg1.win 6).blk t).view.set ↔ ∀ a : Fin 2, win1_6.index t a * S1024x256.size a ≤ (i a).val ∧ (i a).val < win1_6.index t a * S1024x256.size a + S1024x256.size a := by
  show i ∈ ((View.whole main_v53_1).slice (win1_6.rect t)).set ↔ _
  rw [View.set_slice_whole, Rect.mem_set_unit]
  exact Iff.rfl

/-- The eight blocks of 1024 rows fill the 8192 rows: row r is in the block of point r / 1024. -/
private theorem cover_dh (i : S8192x256.Idx) :
    ∃ t : Fin cfg1.N, (cfg1.win 6).flush t = true ∧ i ∈ ((cfg1.win 6).blk t).view.set := by
  have hN : grid1.N = 8 := N_1
  have hi0 : (i 0).val < 8192 := (i 0).isLt
  have hi1 : (i 1).val < 256 := (i 1).isLt
  obtain ⟨t, ht⟩ : ∃ t : Fin cfg1.N, t.val = (i 0).val / 1024 := ⟨⟨(i 0).val / 1024, by show (i 0).val / 1024 < grid1.N; omega⟩, rfl⟩
  obtain ⟨-, -, -, -, -, -, -, -, -, -, a60, a61⟩ := idx_facts t
  refine ⟨t, flush1_6 t, ?_⟩
  rw [mem_blk_dh]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 256 ≤ (i 1).val ∧ (i 1).val < win1_6.index t (1 : Fin 2) * 256 + 256; omega

/-- After the second region its second output array holds the reference's hidden decoder layer. -/
theorem arr_dh (V : (c : Dev nD) → (b : Ref sig .tc) → Buf (Elt Ideal) ((c : Thread nD τ).loc b)) (c : Dev nD)
    (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal))
    (hg : V c main_v50 = Cert.ReferenceIdeal.Read.val_main_v46 x0 x1 x2 x3) (hwe : V c main_v1 = x4)
    (hbe : V c main_v51 = shapeCast S1x64 x5 shapeCasts_S64_S1x64)
    (hwd : V c main_v2 = x6) (hbd : V c main_v52 = shapeCast S1x256 x7 shapeCasts_S256_S1x256) :
    (dat1 (F := Ideal) V c).arrAt 6 cfg1.N = Cert.ReferenceIdeal.Read.val_main_v58 x0 x1 x2 x3 x4 x5 x6 x7 := by
  exact (dat1 (F := Ideal) V c).arrAt_eq_of_cover 6 (Cert.ReferenceIdeal.Read.val_main_v58 x0 x1 x2 x3 x4 x5 x6 x7)
    (fun t _ => flushed_dh V c x0 x1 x2 x3 x4 x5 x6 x7 hg hwe hbe hwd hbd t) cover_dh

end Cert.KernelIdeal.RegionDh

end
-- ==== Proof.RegionRecon.lean ====
/-
  The reconstruction, recon = dh · W_dec2 + b_dec2, as the third region leaves it.
  The region tiles the 8192 rows of the hidden layer into 128 blocks of 64 rows; a grid point multiplies its block by
  the whole second decoder matrix into a zero accumulator and adds the bias row to every row. Entry (i, j) is the sum
  over k of dh(i, k) · W_dec2(k, j), plus b_dec2(j): the reference's reconstruction read at (i, j).
-/
import proofs.«170142_j45904610459855_1_alg».proof.Proof.Gen.KernelIdeal.Frame
import proofs.«170142_j45904610459855_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionRecon

open Cert.KernelIdeal Cert.KernelIdeal.Gen

open Idealize.ShloMosaic.ValueIdx (ix1 ix2 eq_ix2)

/-! ## The block product at an index -/

/-- The offsets of an access to a whole block are zero on both axes. -/
private theorem off_zero : (![0, 0] : Fin 2 → Nat) = fun _ => 0 :=
  funext fun a => match a with | ⟨0, _⟩ => rfl | ⟨1, _⟩ => rfl

/-- The left operand of the block product is read at the output's row … -/
private theorem lhs_dec_0 (i : S64x20000.Idx) (q : dot_S64x256_S256x20000_S64x20000_1_0_0_1_n_n.contr.Idx) :
    (dot_S64x256_S256x20000_S64x20000_1_0_0_1_n_n.lhsIdx i q 0).val = (i 0).val := by
  unfold DotDims.lhsIdx
  rw [dif_neg (show ¬(0 : Fin S64x256.rank) ∈ dot_S64x256_S256x20000_S64x20000_1_0_0_1_n_n.lhsBatch by decide), dif_pos (show (0 : Fin S64x256.rank) ∈ dot_S64x256_S256x20000_S64x20000_1_0_0_1_n_n.lhsNonContracting by decide)]
  rfl
/-- … and at the contraction index on its second axis; -/
private theorem lhs_dec_1 (i : S64x20000.Idx) (q : dot_S64x256_S256x20000_S64x20000_1_0_0_1_n_n.contr.Idx) :
    (dot_S64x256_S256x20000_S64x20000_1_0_0_1_n_n.lhsIdx i q 1).val = (q ⟨0, by decide⟩).val :=
  dot_S64x256_S256x20000_S64x20000_1_0_0_1_n_n.lhsIdx_val_of_single rfl i q
/-- the right operand at the contraction index on its first axis … -/
private theorem rhs_dec_0 (i : S64x20000.Idx) (q : dot_S64x256_S256x20000_S64x20000_1_0_0_1_n_n.contr.Idx) :
    (dot_S64x256_S256x20000_S64x20000_1_0_0_1_n_n.rhsIdx i q 0).val = (q ⟨0, by decide⟩).val :=
  dot_S64x256_S256x20000_S64x20000_1_0_0_1_n_n.rhsIdx_val_of_single rfl i q
/-- … and at the output's column. -/
private theorem rhs_dec_1 (i : S64x20000.Idx) (q : dot_S64x256_S256x20000_S64x20000_1_0_0_1_n_n.contr.Idx) :
    (dot_S64x256_S256x20000_S64x20000_1_0_0_1_n_n.rhsIdx i q 1).val = (i 1).val := by
  unfold DotDims.rhsIdx
  rw [dif_neg (show ¬(1 : Fin S256x20000.rank) ∈ dot_S64x256_S256x20000_S64x20000_1_0_0_1_n_n.rhsBatch by decide), dif_pos (show (1 : Fin S256x20000.rank) ∈ dot_S64x256_S256x20000_S64x20000_1_0_0_1_n_n.rhsNonContracting by decide)]
  rfl

/-- The product of a [64, 256] block with the [256, 20000] matrix into a zero accumulator, read at (p, q): the sum over
    k of the block at (p, k) times the matrix at (k, q). -/
private theorem matmul_dec_apply (a : FVec Ideal S64x256 .bf16) (w : FVec Ideal S256x20000 .bf16) (p : Fin 64) (q : Fin 20000) :
    matmul (F := Ideal) dot_S64x256_S256x20000_S64x20000_1_0_0_1_n_n none a w (constant (F := Ideal) S64x20000 .f32 0x00000000#32) (ix2 p q)
      = ∑ k : Fin 256, a (ix2 p k) * w (ix2 k q) := by
  simp only [matmul]
  rw [Ideal.matmul_constant_zero_apply, ← Equiv.sum_comp (ValueIdx.contrEquiv1 dot_S64x256_S256x20000_S64x20000_1_0_0_1_n_n 256 rfl rfl).symm]
  refine Finset.sum_congr rfl fun k _ => ?_
  have hk := ValueIdx.contrEquiv1_symm_val dot_S64x256_S256x20000_S64x20000_1_0_0_1_n_n 256 rfl rfl k
  have el : dot_S64x256_S256x20000_S64x20000_1_0_0_1_n_n.lhsIdx (ix2 p q) ((ValueIdx.contrEquiv1 dot_S64x256_S256x20000_S64x20000_1_0_0_1_n_n 256 rfl rfl).symm k) = ix2 p k := funext fun ax => Fin.ext (by
    match ax with
    | ⟨0, _⟩ => exact lhs_dec_0 _ _
    | ⟨1, _⟩ => exact (lhs_dec_1 _ _).trans hk)
  have er : dot_S64x256_S256x20000_S64x20000_1_0_0_1_n_n.rhsIdx (ix2 p q) ((ValueIdx.contrEquiv1 dot_S64x256_S256x20000_S64x20000_1_0_0_1_n_n 256 rfl rfl).symm k) = ix2 k q := funext fun ax => Fin.ext (by
    match ax with
    | ⟨0, _⟩ => exact (rhs_dec_0 _ _).trans hk
    | ⟨1, _⟩ => exact rhs_dec_1 _ _)
  rw [el, er]

/-! ## What a grid point computes, at an index -/

/-- The body's value at (p, q) of its block: the sum over k of the hidden block at (p, k) times the decoder matrix at
    (k, q), plus the bias row at q. The change of float format of the hidden block and the three casts of a block to
    its own shape are identities. -/
private theorem pay_apply (d : Vec Ideal S64x256 .f32) (w : Vec Ideal S256x20000 .bf16) (b : Vec Ideal S1x20000 .f32)
    (p : Fin 64) (q : Fin 20000) :
    k2_pay1 (F := Ideal) d w b (ix2 p q) = (∑ k : Fin 256, d (ix2 p k) * w (ix2 k q)) + b (ix2 (0 : Fin 1) q) := by
  unfold k2_pay1
  show matmul (F := Ideal) dot_S64x256_S256x20000_S64x20000_1_0_0_1_n_n none (truncf .bf16 (shapeCast S64x256 d shapeCasts_S64x256_S64x256) bitsLt_bf16_f32)
        (shapeCast S256x20000 w shapeCasts_S256x20000_S256x20000) (constant (F := Ideal) S64x20000 .f32 0x00000000#32) (ix2 p q)
      + broadcastTo S64x20000 (shapeCast S1x20000 b shapeCasts_S1x20000_S1x20000) broadcasts_S1x20000_S64x20000 (ix2 p q) = _
  rw [shapeCast_self d, shapeCast_self w, shapeCast_self b, matmul_dec_apply,
    ValueIdx.broadcastTo_1b_ab_apply b broadcasts_S1x20000_S64x20000 p q]
  rfl

/-- The same against the reference: when the hidden block's row p is the reference's hidden layer at row r, the matrix
    is the reference's and the bias row is the reference's bias, the body's value at (p, q) is the reference's
    reconstruction at (r, q) — a product of the hidden layer with the decoder matrix, plus the bias broadcast over the
    rows. -/
private theorem pay_recon_apply (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal))
    (x8 : (⟨S256x20000, .f32⟩ : BufTy).Contents (Elt Ideal)) (x9 : (⟨S20000, .f32⟩ : BufTy).Contents (Elt Ideal))
    (d : Vec Ideal S64x256 .f32) (w : Vec Ideal S256x20000 .bf16) (b : Vec Ideal S1x20000 .f32)
    (p : Fin 64) (r : Fin 8192) (q : Fin 20000)
    (hd : ∀ k : Fin 256, d (ix2 p k) = Cert.ReferenceIdeal.Read.val_main_v58 x0 x1 x2 x3 x4 x5 x6 x7 (ix2 r k))
    (hw : ∀ k : Fin 256, w (ix2 k q) = x8 (ix2 k q))
    (hb : b (ix2 (0 : Fin 1) q) = x9 (ix1 q)) :
    k2_pay1 (F := Ideal) d w b (ix2 p q) = Cert.ReferenceIdeal.Read.val_main_v62 x0 x1 x2 x3 x4 x5 x6 x7 x8 x9 (ix2 r q) := by
  rw [pay_apply, Cert.ReferenceIdeal.Read.val_main_v62_apply, Ideal.addf_def, Cert.ReferenceIdeal.Read.val_main_v59_apply,
    Cert.ReferenceIdeal.Read.val_main_v61_apply, Cert.ReferenceIdeal.Read.val_main_v60_apply, hb]
  have el : ∀ k : Fin 256, Cert.ReferenceIdeal.Read.lidx_main_v59 (ix2 r q) k = ix2 r k := fun k =>
    funext fun a => Fin.ext (by match a with | ⟨0, _⟩ => rfl | ⟨1, _⟩ => rfl)
  have er : ∀ k : Fin 256, Cert.ReferenceIdeal.Read.ridx_main_v59 (ix2 r q) k = ix2 k q := fun k =>
    funext fun a => Fin.ext (by match a with | ⟨0, _⟩ => rfl | ⟨1, _⟩ => rfl)
  have eb : Cert.ReferenceIdeal.Read.idx_main_v60 (Cert.ReferenceIdeal.Read.idx_main_v61 (ix2 r q)) = ix1 q :=
    funext fun a => Fin.ext (by match a with | ⟨0, _⟩ => rfl)
  rw [eb]
  refine congrArg (· + x9 (ix1 q)) (Finset.sum_congr rfl fun k _ => ?_)
  rw [el, er, hd, hw]

/-! ## From the blocks to the array -/

/-- The windows' block indices at grid point t: the hidden layer's and the output's blocks are block t of the rows and
    the one block of the columns; the matrix and the bias row are one block each. -/
private theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of the reference's reconstruction. -/
private theorem flushed_recon (V : (c : Dev nD) → (b : Ref sig .tc) → Buf (Elt Ideal) ((c : Thread nD τ).loc b)) (c : Dev nD)
    (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal))
    (x8 : (⟨S256x20000, .f32⟩ : BufTy).Contents (Elt Ideal)) (x9 : (⟨S20000, .f32⟩ : BufTy).Contents (Elt Ideal))
    (hd : V c main_v53_1 = Cert.ReferenceIdeal.Read.val_main_v58 x0 x1 x2 x3 x4 x5 x6 x7) (hw : V c main_v3 = x8)
    (hb : V c main_v54 = shapeCast S1x20000 x9 shapeCasts_S20000_S1x20000) (t : Fin cfg2.N) :
    (dat2 (F := Ideal) V c).flushed 3 t
      = ((cfg2.win 3).blk t).view.read (Elt Ideal) (Cert.ReferenceIdeal.Read.val_main_v62 x0 x1 x2 x3 x4 x5 x6 x7 x8 x9) := by
  show (cfg2.win 3).cut (grid2.coords t) ((dat2 (F := Ideal) V c).after 3 t) = _
  rw [after2_3]
  unfold out2_3
  rw [View.canon_unit_zero off_zero]
  simp only [View.ld_unit_zero (S := S64x256) off_zero, View.ld_unit_zero (S := S256x20000) off_zero, View.ld_unit_zero (S := S1x20000) off_zero]
  obtain ⟨e00, e01, e10, e11, e20, e21, e30, e31⟩ := idx_facts t
  have ht : t.val < 128 := by have h : grid2.N = 128 := N_2; exact h ▸ t.isLt
  show (k2_pay1 (F := Ideal) (iblk2 V c 0 t) (iblk2 V c 1 t) (iblk2 V c 2 t) : S64x20000.Idx → EReal)
    = fun j => Cert.ReferenceIdeal.Read.val_main_v62 x0 x1 x2 x3 x4 x5 x6 x7 x8 x9 (((cfg2.win 3).blk t).view.emb j)
  funext j
  obtain ⟨p, q, rfl⟩ : ∃ (p : Fin 64) (q : Fin 20000), j = ix2 p q := ⟨j 0, j 1, eq_ix2 j⟩
  have hp : p.val < 64 := p.isLt
  have hq : q.val < 20000 := q.isLt
  -- the output block's element (p, q) sits at row 64 t + p, column q of the array
  have ho : ((cfg2.win 3).blk t).view.emb (ix2 p q) = ix2 (⟨64 * t.val + p.val, by omega⟩ : Fin 8192) q := by
    funext a; apply Fin.ext
    match a with
    | ⟨0, _⟩ => show win2_3.index t (0 : Fin 2) * 64 + 1 * p.val = 64 * t.val + p.val; omega
    | ⟨1, _⟩ => show win2_3.index t (1 : Fin 2) * 20000 + 1 * q.val = q.val; omega
  rw [ho]
  refine pay_recon_apply x0 x1 x2 x3 x4 x5 x6 x7 x8 x9 (iblk2 V c 0 t) (iblk2 V c 1 t) (iblk2 V c 2 t) p ⟨64 * t.val + p.val, by omega⟩ q
    (fun k => ?_) (fun k => ?_) ?_
  · -- the hidden layer's block t, row p, is the hidden layer's row 64 t + p
    show V c main_v53_1 (((cfg2.win 0).blk t).view.emb (ix2 p k)) = _
    rw [hd]
    refine congrArg _ (funext fun a => Fin.ext ?_)
    have hk : k.val < 256 := k.isLt
    match a with
    | ⟨0, _⟩ => show win2_0.index t (0 : Fin 2) * 64 + 1 * p.val = 64 * t.val + p.val; omega
    | ⟨1, _⟩ => show win2_0.index t (1 : Fin 2) * 256 + 1 * k.val = k.val; omega
  · -- the matrix's one block is the matrix
    show V c main_v3 (((cfg2.win 1).blk t).view.emb (ix2 k q)) = _
    rw [hw]
    refine congrArg _ (funext fun a => Fin.ext ?_)
    have hk : k.val < 256 := k.isLt
    match a with
    | ⟨0, _⟩ => show win2_1.index t (0 : Fin 2) * 256 + 1 * k.val = k.val; omega
    | ⟨1, _⟩ => show win2_1.index t (1 : Fin 2) * 20000 + 1 * q.val = q.val; omega
  · -- the bias row's one block is the bias, laid out as one row
    show V c main_v54 (((cfg2.win 2).blk t).view.emb (ix2 (0 : Fin 1) q)) = _
    rw [hb]
    have hz : ((cfg2.win 2).blk t).view.emb (ix2 (0 : Fin 1) q) = ix2 (0 : Fin 1) q := by
      funext a; apply Fin.ext
      match a with
      | ⟨0, _⟩ => show win2_2.index t (0 : Fin 2) * 1 + 1 * 0 = 0; omega
      | ⟨1, _⟩ => show win2_2.index t (1 : Fin 2) * 20000 + 1 * q.val = q.val; omega
    rw [hz]
    exact ValueIdx.shapeCast_a_1a_apply x9 shapeCasts_S20000_S1x20000 (0 : Fin 1) q

/-- An index of the output array is in point t's block iff each coordinate is in the block's range on its axis. -/
private theorem mem_blk (t : Fin cfg2.N) (i : S8192x20000.Idx) :
    i ∈ ((cfg2.win 3).blk t).view.set ↔ ∀ a : Fin 2, win2_3.index t a * S64x20000.size a ≤ (i a).val ∧ (i a).val < win2_3.index t a * S64x20000.size a + S64x20000.size a := by
  show i ∈ ((View.whole main_v55).slice (win2_3.rect t)).set ↔ _
  rw [View.set_slice_whole, Rect.mem_set_unit]
  exact Iff.rfl

/-- The 128 blocks of 64 rows cover the 8192 rows: row r is in block r / 64. -/
private theorem cover (i : S8192x20000.Idx) :
    ∃ t : Fin cfg2.N, (cfg2.win 3).flush t = true ∧ i ∈ ((cfg2.win 3).blk t).view.set := by
  have hi0 : (i 0).val < 8192 := (i 0).isLt
  have hi1 : (i 1).val < 20000 := (i 1).isLt
  have hN : grid2.N = 128 := N_2
  let t : Fin cfg2.N := ⟨(i 0).val / 64, by show (i 0).val / 64 < grid2.N; omega⟩
  obtain ⟨-, -, -, -, -, -, e30, e31⟩ := idx_facts t
  have e30' : win2_3.index t (0 : Fin 2) = (i 0).val / 64 := e30
  refine ⟨t, flush2_3 t, ?_⟩
  rw [mem_blk]
  intro a
  match a with
  | ⟨0, _⟩ => show win2_3.index t (0 : Fin 2) * 64 ≤ (i 0).val ∧ (i 0).val < win2_3.index t (0 : Fin 2) * 64 + 64; omega
  | ⟨1, _⟩ => show win2_3.index t (1 : Fin 2) * 20000 ≤ (i 1).val ∧ (i 1).val < win2_3.index t (1 : Fin 2) * 20000 + 20000; omega

/-- After the third region its output array holds the reference's reconstruction, when the region was entered with the
    reference's hidden layer, the second decoder matrix and the bias (as one row). -/
theorem arr_recon (V : (c : Dev nD) → (b : Ref sig .tc) → Buf (Elt Ideal) ((c : Thread nD τ).loc b)) (c : Dev nD)
    (x0 : (⟨S8192x20000, .f32⟩ : BufTy).Contents (Elt Ideal)) (x1 : (⟨S2x262144, .i32⟩ : BufTy).Contents (Elt Ideal)) (x2 : (⟨S20000x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal))
    (x8 : (⟨S256x20000, .f32⟩ : BufTy).Contents (Elt Ideal)) (x9 : (⟨S20000, .f32⟩ : BufTy).Contents (Elt Ideal))
    (hd : V c main_v53_1 = Cert.ReferenceIdeal.Read.val_main_v58 x0 x1 x2 x3 x4 x5 x6 x7) (hw : V c main_v3 = x8)
    (hb : V c main_v54 = shapeCast S1x20000 x9 shapeCasts_S20000_S1x20000) :
    (dat2 (F := Ideal) V c).arrAt 3 cfg2.N = Cert.ReferenceIdeal.Read.val_main_v62 x0 x1 x2 x3 x4 x5 x6 x7 x8 x9 := by
  exact (dat2 (F := Ideal) V c).arrAt_eq_of_cover 3 (Cert.ReferenceIdeal.Read.val_main_v62 x0 x1 x2 x3 x4 x5 x6 x7 x8 x9)
    (fun t _ => flushed_recon V c x0 x1 x2 x3 x4 x5 x6 x7 x8 x9 hd hw hb t) cover

end Cert.KernelIdeal.RegionRecon

end
-- ==== Proof.Fold.lean ====
/-
  The kernel program's two results as the reference's stages of the ten arguments, over the extended reals.
  A change of float format is the identity there, so the converted weight matrices are the weight matrices. Each region
  is entered with exactly what the reference's next stage is a function of — the first with x and W_gcn, the second
  with the aggregated features (FoldStructure), W_enc, b_enc, W_dec1 and b_dec1, the third with the hidden decoder
  layer, W_dec2 and b_dec2 — and leaves that stage in its output (the four region modules). The latent code, written by
  the second region, is touched by nothing after it.
-/
import proofs.«170142_j45904610459855_1_alg».proof.Proof.FoldStructure
import proofs.«170142_j45904610459855_1_alg».proof.Proof.RegionH
import proofs.«170142_j45904610459855_1_alg».proof.Proof.RegionLat
import proofs.«170142_j45904610459855_1_alg».proof.Proof.RegionDh
import proofs.«170142_j45904610459855_1_alg».proof.Proof.RegionRecon

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen

section AtIdeal

variable (m : (ℓ : Loc nD τ sig) → Buf (Elt Ideal) ℓ) (ρ : Dev nD → PrngReg)

/-- Over the extended reals a change of float format is the identity. -/
theorem truncf_id {s : Shape} (x : FVec Ideal s .f32) (h : FTy.bits .bf16 < FTy.bits .f32) : truncf .bf16 x h = x := rfl

/-! ## The first region: the product x · W_gcn -/

theorem W2_h (c : Dev nD) : W2 m ρ c (Proc.devRef .tc main_v4) = Cert.ReferenceIdeal.Read.val_main_v0 (m ((c : Thread nD τ).loc main_arg0)) (m ((c : Thread nD τ).loc main_arg2)) :=
  (W2_arr m ρ c 2).trans
    (Cert.KernelIdeal.RegionH.arr_h (V1 m ρ) c _ _ (W1_arg0 m ρ c) ((W1_v0 m ρ c).trans (truncf_id _ _)))

theorem W2_arg1 (c : Dev nD) : W2 m ρ c (Proc.devRef .tc main_arg1) = (m ((c : Thread nD τ).loc main_arg1)) := (W2_of_ne m ρ c main_arg1 (by decide)).trans (W1_arg1 m ρ c)
theorem W2_arg3 (c : Dev nD) : W2 m ρ c (Proc.devRef .tc main_arg3) = (m ((c : Thread nD τ).loc main_arg3)) := (W2_of_ne m ρ c main_arg3 (by decide)).trans (W1_arg3 m ρ c)
theorem W2_arg5 (c : Dev nD) : W2 m ρ c (Proc.devRef .tc main_arg5) = (m ((c : Thread nD τ).loc main_arg5)) := (W2_of_ne m ρ c main_arg5 (by decide)).trans (W1_arg5 m ρ c)
theorem W2_arg7 (c : Dev nD) : W2 m ρ c (Proc.devRef .tc main_arg7) = (m ((c : Thread nD τ).loc main_arg7)) := (W2_of_ne m ρ c main_arg7 (by decide)).trans (W1_arg7 m ρ c)
theorem W2_arg9 (c : Dev nD) : W2 m ρ c (Proc.devRef .tc main_arg9) = (m ((c : Thread nD τ).loc main_arg9)) := (W2_of_ne m ρ c main_arg9 (by decide)).trans (W1_arg9 m ρ c)
theorem W2_v1 (c : Dev nD) : W2 m ρ c (Proc.devRef .tc main_v1) = (m ((c : Thread nD τ).loc main_arg4)) := (W2_of_ne m ρ c main_v1 (by decide)).trans ((W1_v1 m ρ c).trans (truncf_id _ _))
theorem W2_v2 (c : Dev nD) : W2 m ρ c (Proc.devRef .tc main_v2) = (m ((c : Thread nD τ).loc main_arg6)) := (W2_of_ne m ρ c main_v2 (by decide)).trans ((W1_v2 m ρ c).trans (truncf_id _ _))
theorem W2_v3 (c : Dev nD) : W2 m ρ c (Proc.devRef .tc main_v3) = (m ((c : Thread nD τ).loc main_arg8)) := (W2_of_ne m ρ c main_v3 (by decide)).trans ((W1_v3 m ρ c).trans (truncf_id _ _))

/-! ## The second region's entry: the aggregated features, the two weight matrices, the two bias rows -/

theorem V5_g (c : Dev nD) : V5 m ρ c main_v50 = Cert.ReferenceIdeal.Read.val_main_v46 (m ((c : Thread nD τ).loc main_arg0)) (m ((c : Thread nD τ).loc main_arg1)) (m ((c : Thread nD τ).loc main_arg2)) (m ((c : Thread nD τ).loc main_arg3)) :=
  W5_v50 m ρ c _ _ _ _ (W2_h m ρ c) (W2_arg1 m ρ c) (W2_arg3 m ρ c)
theorem V5_we (c : Dev nD) : V5 m ρ c main_v1 = (m ((c : Thread nD τ).loc main_arg4)) := ((W5_keeps m ρ c).1).trans (W2_v1 m ρ c)
theorem V5_wd (c : Dev nD) : V5 m ρ c main_v2 = (m ((c : Thread nD τ).loc main_arg6)) := ((W5_keeps m ρ c).2.1).trans (W2_v2 m ρ c)
theorem V5_be (c : Dev nD) : V5 m ρ c main_v51 = shapeCast S1x64 (m ((c : Thread nD τ).loc main_arg5)) Cert.KernelIdeal.Gen.shapeCasts_S64_S1x64 :=
  (W5_v51 m ρ c).trans (congrArg (fun z => shapeCast S1x64 z Cert.KernelIdeal.Gen.shapeCasts_S64_S1x64) (((W5_keeps m ρ c).2.2.2.2.1).trans (W2_arg5 m ρ c)))
theorem V5_bd (c : Dev nD) : V5 m ρ c main_v52 = shapeCast S1x256 (m ((c : Thread nD τ).loc main_arg7)) Cert.KernelIdeal.Gen.shapeCasts_S256_S1x256 :=
  (W5_v52 m ρ c).trans (congrArg (fun z => shapeCast S1x256 z Cert.KernelIdeal.Gen.shapeCasts_S256_S1x256) (((W5_keeps m ρ c).2.2.2.2.2).trans (W2_arg7 m ρ c)))

/-! ## The second region: the latent code and the decoder's hidden layer -/

theorem W6_lat (c : Dev nD) : W6 m ρ c (Proc.devRef .tc main_v53_0) = Cert.ReferenceIdeal.Read.val_main_v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 5).trans
    (Cert.KernelIdeal.RegionLat.arr_lat (V5 m ρ) c _ _ _ _ _ _ (V5_g m ρ c) (V5_we m ρ c) (V5_be m ρ c))
theorem W6_dh (c : Dev nD) : W6 m ρ c (Proc.devRef .tc main_v53_1) = Cert.ReferenceIdeal.Read.val_main_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 6).trans
    (Cert.KernelIdeal.RegionDh.arr_dh (V5 m ρ) c _ _ _ _ _ _ _ _ (V5_g m ρ c) (V5_we m ρ c) (V5_be m ρ c) (V5_wd m ρ c) (V5_bd m ρ c))

/-! ## The third region's entry: the hidden layer, the last weight matrix, the last bias row -/

theorem V7_dh (c : Dev nD) : V7 m ρ c main_v53_1 = Cert.ReferenceIdeal.Read.val_main_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Eq.trans (by
    show StableHlo.after hostOps2 (W6 m ρ c) (Proc.devRef .tc main_v53_1) = W6 m ρ c (Proc.devRef .tc main_v53_1)
    unwritten_by hostOps2) (W6_dh m ρ c)
theorem V7_w (c : Dev nD) : V7 m ρ c main_v3 = (m ((c : Thread nD τ).loc main_arg8)) :=
  Eq.trans (by
    show StableHlo.after hostOps2 (W6 m ρ c) (Proc.devRef .tc main_v3) = W6 m ρ c (Proc.devRef .tc main_v3)
    unwritten_by hostOps2)
    ((W6_of_ne m ρ c main_v3 (by decide)).trans (((W5_keeps m ρ c).2.2.1).trans (W2_v3 m ρ c)))
theorem V7_b (c : Dev nD) : V7 m ρ c main_v54 = shapeCast S1x20000 (m ((c : Thread nD τ).loc main_arg9)) Cert.KernelIdeal.Gen.shapeCasts_S20000_S1x20000 := by
  have h9 : W6 m ρ c (Proc.devRef .tc main_arg9) = (m ((c : Thread nD τ).loc main_arg9)) :=
    (W6_of_ne m ρ c main_arg9 (by decide)).trans (((W5_keeps m ρ c).2.2.2.1).trans (W2_arg9 m ρ c))
  show StableHlo.after hostOps2 (W6 m ρ c) (Proc.devRef .tc main_v54) = _
  after_results
  rw [h9]
  rfl

/-! ## The last boundary: the two results as the reference's stages of the ten arguments -/

/-- The reconstruction. -/
theorem W8_recon (c : Dev nD) : W8 m ρ c (Proc.devRef .tc main_v55) = Cert.ReferenceIdeal.Read.val_main_v62 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 3).trans
    (Cert.KernelIdeal.RegionRecon.arr_recon (V7 m ρ) c _ _ _ _ _ _ _ _ _ _ (V7_dh m ρ c) (V7_w m ρ c) (V7_b m ρ c))

/-- The latent code: the third region and the reshape before it leave it as the second region wrote it. -/
theorem W8_lat (c : Dev nD) : W8 m ρ c (Proc.devRef .tc main_v53_0) = Cert.ReferenceIdeal.Read.val_main_v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_of_ne m ρ c main_v53_0 (by decide)).trans (Eq.trans (by
    show StableHlo.after hostOps2 (W6 m ρ c) (Proc.devRef .tc main_v53_0) = W6 m ρ c (Proc.devRef .tc main_v53_0)
    unwritten_by hostOps2) (W6_lat m ρ c))

end AtIdeal

end Cert.KernelIdeal.Fold

end
-- ==== Proof.lean ====
/-
  A graph-convolutional autoencoder on 8192 nodes: h = x · W_gcn; g = the symmetric-normalised neighbourhood sum of
  the rows of h over the edges and self-loops, plus b_gcn; latent = relu(g) · W_enc + b_enc;
  recon = relu(latent · W_dec1 + b_dec1) · W_dec2 + b_dec2. The results are (recon, latent).

  The kernel program computes the three dense stages in three pipelined regions that tile only the rows (128, 1024
  and 64 rows a block; every contraction is whole inside one block, into a zero accumulator) on operands converted to
  a narrower float format, and the aggregation between the first two by the same host operations as the reference.
  Over the extended reals a change of float format is the identity and a block product into a zero accumulator is the
  plain sum over the contracted index, so each region leaves in its output exactly the reference's stage: the first
  product (RegionH), the latent code (RegionLat), the hidden decoder layer (RegionDh), the reconstruction
  (RegionRecon). Fold reads the buffers at the boundaries between the program's segments: the aggregation is the
  reference's own chain applied to the first product, matched as one term and never opened. No algebraic law beyond
  the reading of the two kinds of product as the same sum is used, so the finiteness of the inputs is never opened.

  The three frames: the kernel's two are the generated frame certificates; the reference's is its run with the
  results dropped. The idealization rewrote nothing, so `preserves` is trivial.
-/
import proofs.«170142_j45904610459855_1_alg».proof.Defs
import proofs.«170142_j45904610459855_1_alg».proof.Proof.Gen.Kernel
import proofs.«170142_j45904610459855_1_alg».proof.Proof.Gen.Kernel.Frame
import proofs.«170142_j45904610459855_1_alg».proof.Proof.Gen.KernelIdeal
import proofs.«170142_j45904610459855_1_alg».proof.Proof.Gen.KernelIdeal.Frame
import proofs.«170142_j45904610459855_1_alg».proof.Proof.Gen.ReferenceIdeal
import proofs.«170142_j45904610459855_1_alg».proof.Proof.Gen.Pre_finite_inputs
import proofs.«170142_j45904610459855_1_alg».proof.Proof.RefRun
import proofs.«170142_j45904610459855_1_alg».proof.Proof.RefRead
import proofs.«170142_j45904610459855_1_alg».proof.Proof.KernelRun
import proofs.«170142_j45904610459855_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the reference's reconstruction and latent code, as functions of the ten arguments: the
    kernel program by its run to the last boundary (ValueRun) read there (Fold), the reference by its own run. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.ValueRun.run_vals (F := Ideal) m ρ)
    obtain ⟨h0, h1, hrest⟩ := h c
    exact ⟨h0.trans (Cert.KernelIdeal.Fold.W8_recon m ρ c), h1.trans (Cert.KernelIdeal.Fold.W8_lat m ρ c), hrest⟩
  · refine (θ_run Cert.ReferenceIdeal.defs _ _).mono (fun r h c => ?_) (Cert.ReferenceIdeal.Value.run (F := Ideal) m' ρ')
    obtain ⟨h0, h1, hrest⟩ := h c
    obtain ⟨e0, e1, e2, e3, e4, e5, e6, e7, e8, e9⟩ := hagree c
    refine ⟨h0.trans ?_, h1.trans ?_, hrest⟩
    · rw [Cert.ReferenceIdeal.Read.val_main_v62_eq, e0, e1, e2, e3, e4, e5, e6, e7, e8, e9]
    · rw [Cert.ReferenceIdeal.Read.val_main_v52_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
